-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S2000x128 : Shape := ⟨2, ![2000, 128]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 68
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x64, .bf16⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x64, .f32⟩
  | .local _ .vmem, ⟨8, _⟩ => ⟨S2000x128, .f32⟩
  | .local _ .vmem, ⟨9, _⟩ => ⟨S2000x128, .f32⟩
  | .local _ .vmem, ⟨10, _⟩ => ⟨S2000x64, .bf16⟩
  | .local _ .vmem, ⟨11, _⟩ => ⟨S2000x64, .bf16⟩
  | .local _ .vmem, ⟨12, _⟩ => ⟨S2000x128, .f32⟩
  | .local _ .vmem, ⟨13, _⟩ => ⟨S2000x128, .f32⟩
  | .local _ .vmem, ⟨14, _⟩ => ⟨S2000x64, .f32⟩
  | .local _ .vmem, ⟨15, _⟩ => ⟨S2000x64, .f32⟩
  | .local _ .vmem, ⟨16, _⟩ => ⟨S128x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .bf16 = 32 ∨ (Rect.block (s := S100000x64) S2000x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.SageSpec.lean ====
/-
  A two-layer graph network with mean aggregation over in-edges, entry by entry, on the extended reals.

  A graph on N nodes is given by E edges, each a pair of endpoints stored as 32-bit words: a SOURCE endpoint, which
  names the table row the edge reads (read as a signed integer and clamped into the table), and a DESTINATION
  endpoint, which names the node the edge is summed into (read as a signed integer; a value that is no node's number
  is summed nowhere). The mean aggregate of a table y at node n is the sum of the rows its in-edges read, divided by
  the larger of the in-degree and one. A layer maps the node features x to x W + agg(x) W' + b.
-/
import Idealize.ShloMosaic.PureOps.Ideal
import Idealize.ShloMosaic.Lib.ValueIdx

noncomputable section

open scoped BigOperators

namespace Sage

open Idealize.ShloMosaic Idealize.ShloMosaic.ValueIdx

/-- An r × c matrix of extended reals. -/
abbrev Mat (r c : ℕ) : Type := (⟨2, ![r, c]⟩ : Shape).Idx → EReal
/-- One endpoint of each of E edges, as an E × 1 column of words. -/
abbrev Ends (E : ℕ) : Type := (⟨2, ![E, 1]⟩ : Shape).Idx → BitVec 32

/-- Every entry is a real number: neither infinity. -/
def IsReal {ι : Type} (f : ι → EReal) : Prop := ∀ i, f i ≠ ⊤ ∧ f i ≠ ⊥

variable {N E K J M : ℕ}

/-- The table row edge e reads: its source endpoint as a signed integer, clamped into [0, N − 1]. -/
def srcRow (hN : 0 < N) (s : Ends E) (e : Fin E) : Fin N :=
  ⟨min (s (ix2 e (0 : Fin 1))).toInt.toNat (N - 1), by omega⟩

/-- The in-edges of node n: the edges whose destination endpoint, as a signed integer, is n. -/
def inEdges (d : Ends E) (n : Fin N) : Finset (Fin E) :=
  Finset.univ.filter fun e => (d (ix2 e (0 : Fin 1))).toInt = (n.val : ℤ)

/-- The divisor at node n: the larger of its in-degree (a sum of ones over the in-edges) and one. -/
def degree (d : Ends E) (n : Fin N) : EReal := max (∑ _e ∈ inEdges d n, (1 : EReal)) 1

/-- The mean aggregate of the table y at node n, column k. -/
def aggAt (hN : 0 < N) (s d : Ends E) (y : Mat N K) (n : Fin N) (k : Fin K) : EReal :=
  Ideal.div (∑ e ∈ inEdges d n, y (ix2 (srcRow hN s e) k)) (degree d n)

/-- The mean aggregate as a table. -/
def agg (hN : 0 < N) (s d : Ends E) (y : Mat N K) : Mat N K := fun i => aggAt hN s d y (i 0) (i 1)

/-- Entry (r, j) of the matrix product A B. -/
def linAt (A : Mat M K) (B : Mat K J) (r : Fin M) (j : Fin J) : EReal := ∑ c : Fin K, A (ix2 r c) * B (ix2 c j)

/-- The matrix product as a table. -/
def lin (A : Mat M K) (B : Mat K J) : Mat M J := fun i => linAt A B (i 0) (i 1)

/-- Entry (r, j) of the hidden layer: the larger of x W + a W' + b and zero, a the aggregate's rows, b one row. -/
def hiddenAt (X A : Mat M K) (W W' : Mat K J) (b : Mat 1 J) (r : Fin M) (j : Fin J) : EReal :=
  max (linAt X W r j + linAt A W' r j + b (ix2 (0 : Fin 1) j)) 0

/-- The hidden layer as a table. -/
def hidden (X A : Mat M K) (W W' : Mat K J) (b : Mat 1 J) : Mat M J := fun i => hiddenAt X A W W' b (i 0) (i 1)

/-- Entry (r, j) of the output layer given the neighbour term a already multiplied out: h W + a + b. -/
def outAt (H : Mat M K) (A : Mat M J) (W : Mat K J) (b : Mat 1 J) (r : Fin M) (j : Fin J) : EReal :=
  linAt H W r j + A (ix2 r j) + b (ix2 (0 : Fin 1) j)

/-- The output layer as a table. -/
def out (H : Mat M K) (A : Mat M J) (W : Mat K J) (b : Mat 1 J) : Mat M J := fun i => outAt H A W b (i 0) (i 1)

theorem agg_apply (hN : 0 < N) (s d : Ends E) (y : Mat N K) (n : Fin N) (k : Fin K) :
    agg hN s d y (ix2 n k) = aggAt hN s d y n k := rfl
theorem lin_apply (A : Mat M K) (B : Mat K J) (r : Fin M) (j : Fin J) : lin A B (ix2 r j) = linAt A B r j := rfl
theorem hidden_apply (X A : Mat M K) (W W' : Mat K J) (b : Mat 1 J) (r : Fin M) (j : Fin J) :
    hidden X A W W' b (ix2 r j) = hiddenAt X A W W' b r j := rfl
theorem out_apply (H : Mat M K) (A : Mat M J) (W : Mat K J) (b : Mat 1 J) (r : Fin M) (j : Fin J) :
    out H A W b (ix2 r j) = outAt H A W b r j := rfl

end Sage

end
-- ==== Proof.LibRealAgg.lean ====
/-
  Real-valued tables under the layers of a mean-aggregation graph network, on the extended reals.

  A table of extended reals is REAL when no entry is an infinity; equivalently, when it is the entrywise coercion of a
  table of real numbers. This file proves that realness is preserved by every layer of the network (the mean aggregate
  over in-edges, the matrix product, the hidden layer), that the divisor of the mean is a real number at least one, and
  the law that makes the two layers compose: for real tables, the mean aggregate of the rows of a matrix product H W is
  the matrix product of the mean aggregate of the rows of H with W. The law is a statement about finite sums of real
  numbers (exchange the two sums and pull the common factor 1 / degree out); it fails on the extended reals in general,
  where multiplication does not distribute over sums that contain both infinities, so realness is a genuine hypothesis.
-/
import proofs.«404498_j87282325390023_4_alg».proof.Proof.SageSpec
import Mathlib.Data.EReal.Basic
import Mathlib.Data.EReal.Operations
import Mathlib.Data.EReal.Inv
import Mathlib.Algebra.BigOperators.Ring.Finset
import Mathlib.Tactic.Ring
import Mathlib.Tactic.Linarith

noncomputable section

open scoped BigOperators

namespace Sage

open Idealize.ShloMosaic Idealize.ShloMosaic.ValueIdx

variable {N E K J M : ℕ}

/-- The coercion from the reals to the extended reals commutes with finite sums. -/
theorem ereal_coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The coercion from the reals to the extended reals commutes with the maximum of two numbers. -/
theorem ereal_coe_max (a b : ℝ) : ((max a b : ℝ) : EReal) = max (a : EReal) (b : EReal) :=
  EReal.coe_strictMono.monotone.map_max

/-- A table is real exactly when it is the entrywise coercion of a table of real numbers. -/
theorem isReal_iff {ι : Type} (f : ι → EReal) : IsReal f ↔ ∃ g : ι → ℝ, ∀ i, f i = (g i : EReal) := by
  constructor
  · intro h
    exact ⟨fun i => (f i).toReal, fun i => (EReal.coe_toReal (h i).1 (h i).2).symm⟩
  · rintro ⟨g, hg⟩ i
    rw [hg i]
    exact ⟨EReal.coe_ne_top _, EReal.coe_ne_bot _⟩

/-- A table each of whose entries is the coercion of some real number is real. -/
theorem isReal_of_forall {ι : Type} {f : ι → EReal} (h : ∀ i, ∃ r : ℝ, f i = (r : EReal)) : IsReal f := by
  intro i
  obtain ⟨r, hr⟩ := h i
  rw [hr]
  exact ⟨EReal.coe_ne_top _, EReal.coe_ne_bot _⟩

/-- The divisor of the mean at a node is a real number at least one: the larger of the in-degree and one. -/
theorem degree_real (d : Ends E) (n : Fin N) : ∃ r : ℝ, 1 ≤ r ∧ degree d n = (r : EReal) := by
  refine ⟨max (∑ _e ∈ inEdges d n, (1 : ℝ)) 1, le_max_right _ _, ?_⟩
  rw [degree, ereal_coe_max, ereal_coe_sum, EReal.coe_one]

/-- The mean aggregate at a node, column k, when the entries the in-edges read in that column are real numbers g e and
    the divisor is the real number r ≥ 1: the coercion of (∑ g e) · (1 / r). -/
theorem aggAt_eq_coe (hN : 0 < N) (s d : Ends E) (y : Mat N K) {r : ℝ} (hr : 1 ≤ r) (n : Fin N)
    (hd : degree d n = (r : EReal)) (k : Fin K) (g : Fin E → ℝ)
    (hg : ∀ e, y (ix2 (srcRow hN s e) k) = (g e : EReal)) :
    aggAt hN s d y n k = (((∑ e ∈ inEdges d n, g e) * (1 / r) : ℝ) : EReal) := by
  have hr0 : r ≠ 0 := by linarith
  rw [aggAt, hd, Ideal.div_coe hr0, EReal.coe_mul, ereal_coe_sum]
  simp only [hg]

/-- An entry of a matrix product when row r of the left factor is the real numbers a c and column j of the right factor
    is the real numbers b c: the coercion of ∑ a c · b c. -/
theorem linAt_eq_coe (A : Mat M K) (B : Mat K J) (r : Fin M) (j : Fin J) (a b : Fin K → ℝ)
    (ha : ∀ c, A (ix2 r c) = (a c : EReal)) (hb : ∀ c, B (ix2 c j) = (b c : EReal)) :
    linAt A B r j = ((∑ c : Fin K, a c * b c : ℝ) : EReal) := by
  rw [linAt, ereal_coe_sum]
  exact Finset.sum_congr rfl fun c _ => by rw [ha, hb, EReal.coe_mul]

/-- The mean aggregate of a real table is real. -/
theorem agg_isReal (hN : 0 < N) (s d : Ends E) {y : Mat N K} (hy : IsReal y) : IsReal (agg hN s d y) := by
  obtain ⟨g, hg⟩ := (isReal_iff y).1 hy
  refine isReal_of_forall fun i => ?_
  obtain ⟨n, k, rfl⟩ : ∃ n k, i = ix2 n k := ⟨i 0, i 1, eq_ix2 i⟩
  obtain ⟨r, hr, hd⟩ := degree_real d n
  exact ⟨_, aggAt_eq_coe hN s d y hr n hd k _ fun e => hg _⟩

/-- The product of two real tables is real. -/
theorem lin_isReal {A : Mat M K} {B : Mat K J} (hA : IsReal A) (hB : IsReal B) : IsReal (lin A B) := by
  obtain ⟨a, ha⟩ := (isReal_iff A).1 hA
  obtain ⟨b, hb⟩ := (isReal_iff B).1 hB
  refine isReal_of_forall fun i => ?_
  obtain ⟨r, j, rfl⟩ : ∃ r j, i = ix2 r j := ⟨i 0, i 1, eq_ix2 i⟩
  exact ⟨_, linAt_eq_coe A B r j _ _ (fun c => ha _) (fun c => hb _)⟩

/-- The hidden layer of real tables is real: sums and the maximum with zero of real numbers are real. -/
theorem hidden_isReal {X A : Mat M K} {W W' : Mat K J} {b : Mat 1 J} (hX : IsReal X) (hA : IsReal A)
    (hW : IsReal W) (hW' : IsReal W') (hb : IsReal b) : IsReal (hidden X A W W' b) := by
  obtain ⟨p, hp⟩ := (isReal_iff _).1 (lin_isReal hX hW)
  obtain ⟨q, hq⟩ := (isReal_iff _).1 (lin_isReal hA hW')
  obtain ⟨β, hβ⟩ := (isReal_iff b).1 hb
  refine isReal_of_forall fun i => ?_
  obtain ⟨r, j, rfl⟩ : ∃ r j, i = ix2 r j := ⟨i 0, i 1, eq_ix2 i⟩
  refine ⟨max (p (ix2 r j) + q (ix2 r j) + β (ix2 0 j)) 0, ?_⟩
  rw [hidden_apply, hiddenAt, ← lin_apply X W, ← lin_apply A W', hp, hq, hβ, ereal_coe_max, EReal.coe_add, EReal.coe_add,
    EReal.coe_zero]

/-- THE LAW: the mean aggregate of the products' rows is the product of the mean aggregate's rows. For real tables both
    sides are, entry by entry, the same double sum of real numbers taken in the two orders, with the reciprocal of the
    divisor pulled out as a common factor. -/
theorem agg_lin (hN : 0 < N) (s d : Ends E) {H : Mat N K} {W : Mat K J} (hH : IsReal H) (hW : IsReal W) :
    agg hN s d (lin H W) = lin (agg hN s d H) W := by
  obtain ⟨h, hh⟩ := (isReal_iff H).1 hH
  obtain ⟨w, hw⟩ := (isReal_iff W).1 hW
  funext i
  obtain ⟨n, j, rfl⟩ : ∃ n j, i = ix2 n j := ⟨i 0, i 1, eq_ix2 i⟩
  obtain ⟨r, hr, hd⟩ := degree_real d n
  rw [agg_apply, lin_apply]
  -- the left side: the aggregate of the products, each product a real sum over the contracted index
  rw [aggAt_eq_coe hN s d (lin H W) hr n hd j (fun e => ∑ c : Fin K, h (ix2 (srcRow hN s e) c) * w (ix2 c j))
    (fun e => linAt_eq_coe H W (srcRow hN s e) j _ _ (fun c => hh _) (fun c => hw _))]
  -- the right side: the product of the aggregates, each aggregate a real sum over the in-edges times 1 / r
  rw [linAt_eq_coe (agg hN s d H) W n j (fun c => (∑ e ∈ inEdges d n, h (ix2 (srcRow hN s e) c)) * (1 / r))
    (fun c => w (ix2 c j)) (fun c => aggAt_eq_coe hN s d H hr n hd c _ fun e => hh _) (fun c => hw _)]
  congr 1
  -- the identity of real numbers: exchange the two sums and pull out the common factor
  rw [Finset.sum_comm, Finset.sum_mul]
  refine Finset.sum_congr rfl fun c _ => ?_
  rw [← Finset.sum_mul]
  ring

end Sage

end
-- ==== Proof.SageNet.lean ====
/-
  The two spellings of the two-layer network as whole tables, and their equality on real inputs.

  Both start from the hidden layer h = max(x W₁ + agg(x) W₁' + b₁, 0). The first spelling multiplies h by the second
  layer's neighbour weights BEFORE aggregating, out = h W₂ + agg(h W₂') + b₂; the second aggregates first,
  out = h W₂ + agg(h) W₂' + b₂. Mean aggregation is a finite sum of rows times a real factor, so on real-valued inputs it
  commutes with the product on the right and the two agree; with an infinite entry the sums do not distribute, which is
  why the inputs are asked to be real.
-/
import proofs.«404498_j87282325390023_4_alg».proof.Proof.SageSpec
import proofs.«404498_j87282325390023_4_alg».proof.Proof.LibRealAgg
import Idealize.ShloMosaic.PureOps

noncomputable section

open scoped BigOperators

namespace Sage

open Idealize.ShloMosaic Idealize.ShloMosaic.ValueIdx

variable {N E K J L : ℕ}

/-- The source endpoints read off a 2 × E edge list: its row 0, a negative entry shifted up by the table's height (the
    word `wrap`), laid out as a column. -/
abbrev srcEnds (E : ℕ) (wrap : BitVec 32)
    (hsl : (⟨2, ![2, E]⟩ : Shape).Slices ![0, 0] ⟨2, ![1, E]⟩) (hsc : (⟨2, ![1, E]⟩ : Shape).ShapeCasts ⟨1, ![E]⟩)
    (hb : (⟨0, ![]⟩ : Shape).BroadcastsInDim ⟨1, ![E]⟩ (![] : Fin 0 → Fin 1))
    (hcol : (⟨1, ![E]⟩ : Shape).BroadcastsInDim ⟨2, ![E, 1]⟩ (![0] : Fin 1 → Fin 2))
    (ei : IVec ⟨2, ![2, E]⟩ 32) : Ends E :=
  broadcastInDim ⟨2, ![E, 1]⟩ ![0] hcol
    (select
      (cmpi .slt (shapeCast ⟨1, ![E]⟩ (extractStridedSlice ⟨2, ![1, E]⟩ ![0, 0] ei hsl) hsc)
        (broadcastInDim ⟨1, ![E]⟩ ![] hb (constantI ⟨0, ![]⟩ 32 0#32)))
      (addi (shapeCast ⟨1, ![E]⟩ (extractStridedSlice ⟨2, ![1, E]⟩ ![0, 0] ei hsl) hsc)
        (broadcastInDim ⟨1, ![E]⟩ ![] hb (constantI ⟨0, ![]⟩ 32 wrap)))
      (shapeCast ⟨1, ![E]⟩ (extractStridedSlice ⟨2, ![1, E]⟩ ![0, 0] ei hsl) hsc))

/-- The destination endpoints read off a 2 × E edge list: its row 1 as a column. -/
abbrev dstEnds (E : ℕ)
    (hsl : (⟨2, ![2, E]⟩ : Shape).Slices ![1, 0] ⟨2, ![1, E]⟩) (hsc : (⟨2, ![1, E]⟩ : Shape).ShapeCasts ⟨1, ![E]⟩)
    (hcol : (⟨1, ![E]⟩ : Shape).BroadcastsInDim ⟨2, ![E, 1]⟩ (![0] : Fin 1 → Fin 2))
    (ei : IVec ⟨2, ![2, E]⟩ 32) : Ends E :=
  broadcastInDim ⟨2, ![E, 1]⟩ ![0] hcol (shapeCast ⟨1, ![E]⟩ (extractStridedSlice ⟨2, ![1, E]⟩ ![1, 0] ei hsl) hsc)

/-- A vector of J entries as a 1 × J table. -/
def asRow (b : (⟨1, ![J]⟩ : Shape).Idx → EReal) : Mat 1 J := fun i => b (ix1 (i 1))

theorem asRow_isReal {b : (⟨1, ![J]⟩ : Shape).Idx → EReal} (hb : IsReal b) : IsReal (asRow b) := fun i => hb _

/-- The hidden layer of the network from the node features. -/
def net1 (hN : 0 < N) (s d : Ends E) (x : Mat N K) (w w' : Mat K J) (b : (⟨1, ![J]⟩ : Shape).Idx → EReal) : Mat N J :=
  hidden x (agg hN s d x) w w' (asRow b)

/-- The output with the hidden layer multiplied by the neighbour weights first, then aggregated. -/
def netProjFirst (hN : 0 < N) (s d : Ends E) (x : Mat N K) (w1 w1' : Mat K J) (b1 : (⟨1, ![J]⟩ : Shape).Idx → EReal)
    (w2 w2' : Mat J L) (b2 : (⟨1, ![L]⟩ : Shape).Idx → EReal) : Mat N L :=
  out (net1 hN s d x w1 w1' b1) (agg hN s d (lin (net1 hN s d x w1 w1' b1) w2')) w2 (asRow b2)

/-- The output with the hidden layer aggregated first, then multiplied by the neighbour weights. -/
def netAggFirst (hN : 0 < N) (s d : Ends E) (x : Mat N K) (w1 w1' : Mat K J) (b1 : (⟨1, ![J]⟩ : Shape).Idx → EReal)
    (w2 w2' : Mat J L) (b2 : (⟨1, ![L]⟩ : Shape).Idx → EReal) : Mat N L :=
  out (net1 hN s d x w1 w1' b1) (lin (agg hN s d (net1 hN s d x w1 w1' b1)) w2') w2 (asRow b2)

/-- On real features, first-layer weights and bias, and real second-layer neighbour weights, the two spellings agree. -/
theorem netProjFirst_eq_netAggFirst (hN : 0 < N) (s d : Ends E) {x : Mat N K} {w1 w1' : Mat K J}
    {b1 : (⟨1, ![J]⟩ : Shape).Idx → EReal} (w2 : Mat J L) {w2' : Mat J L} (b2 : (⟨1, ![L]⟩ : Shape).Idx → EReal)
    (hx : IsReal x) (hw1 : IsReal w1) (hw1' : IsReal w1') (hb1 : IsReal b1) (hw2' : IsReal w2') :
    netProjFirst hN s d x w1 w1' b1 w2 w2' b2 = netAggFirst hN s d x w1 w1' b1 w2 w2' b2 := by
  unfold netProjFirst netAggFirst net1
  rw [agg_lin hN s d (hidden_isReal hx (agg_isReal hN s d hx) hw1 hw1' (asRow_isReal hb1)) hw2']

end Sage

end
-- ==== Proof.LibEdgeOps.lean ====
/-
  The host's take of rows and its accumulating scatters, read at one entry.

  A take of rows of an N × K table at E start indices (an E × 1 column of words) reads, at entry (e, k), the table at
  row "start index e, as a signed integer, clamped into [0, N − 1]" and column k. An accumulating scatter of an E × K
  table of updates into an N × K table at E destination indices adds, at entry (n, k), the updates (e, k) of exactly
  those e whose destination index, as a signed integer, is n; an update whose destination is no row is dropped. The
  same holds for a scatter of a vector of E updates into a vector of N entries. Together: the quotient of the scattered
  sum of the taken rows by the larger of the scattered count of ones and one is the mean aggregate over the in-edges.
-/
import proofs.«404498_j87282325390023_4_alg».proof.Proof.SageSpec
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Sage

open Idealize.ShloMosaic Idealize.ShloMosaic.ValueIdx

variable {N E K : ℕ}

/-- Dimension numbers of a take of rows: offset_dims [1], collapsed_slice_dims [0], start_index_map [0],
    index_vector_dim 1, slice_sizes [1, K]. -/
abbrev rowGather (N E K : ℕ) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Dimension numbers of a scatter of rows: update_window_dims [1], inserted_window_dims [0],
    scatter_dims_to_operand_dims [0], index_vector_dim 1. -/
abbrev rowScatter (N E K : ℕ) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- Dimension numbers of a scatter of scalars into a vector: no update window, inserted_window_dims [0],
    scatter_dims_to_operand_dims [0], index_vector_dim 1. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- THE TAKE OF ROWS READ AT (e, k): the table at the row the start index of e names (read signed, clamped into
    [0, N − 1]), column k. -/
theorem gather_rows_apply {α : Type} (hN : 0 < N)
    (wf : GatherDims.WF ⟨2, ![N, K]⟩ ⟨2, ![E, 1]⟩ ⟨2, ![E, K]⟩ [1] [0] [] [0] [] 1 ![1, K])
    (y : (⟨2, ![N, K]⟩ : Shape).Idx → α) (s : Ends E) (e : Fin E) (k : Fin K) :
    Host.gather (rowGather N E K wf) y s (ix2 e k) = y (ix2 (srcRow hN s e) k) := by
  -- the row coordinate: the clamped start index, no batching and no offset on the collapsed axis
  have h0 : (rowGather N E K wf).start (ix2 e k) s (0 : Fin 2) + (rowGather N E K wf).batchCoord (ix2 e k) (0 : Fin 2)
      + (rowGather N E K wf).offCoord (ix2 e k) (0 : Fin 2) = (srcRow hN s e).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGather N E K wf).startIndexMap from List.mem_singleton.mpr rfl)]
    have hsi : (rowGather N E K wf).siIdx (ix2 e k) ⟨List.idxOf (0 : Fin 2) (rowGather N E K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start index names it, so it is the offset coordinate k
  have h1 : (rowGather N E K wf).start (ix2 e k) s (1 : Fin 2) + (rowGather N E K wf).batchCoord (ix2 e k) (1 : Fin 2)
      + (rowGather N E K wf).offCoord (ix2 e k) (1 : Fin 2) = k.val := by
    rw [GatherDims.batchCoord_eq_zero _ _ _ List.not_mem_nil, Nat.add_zero]
    unfold GatherDims.start
    rw [dif_neg (show (1 : Fin 2) ∉ (rowGather N E K wf).startIndexMap from
      fun h => absurd (congrArg Fin.val (List.mem_singleton.mp h)) Nat.one_ne_zero), Nat.zero_add]
    rfl
  unfold Host.gather
  congr 1
  funext a
  refine Fin.ext ?_
  match a with
  | ⟨0, _⟩ => exact h0
  | ⟨1, _⟩ => exact h1

/-! ## When an update lands -/

/-- An update lands at operand index i exactly when, on every operand axis, the start read off the scatter indices
    plus the window coordinate is i's coordinate. -/
theorem resultIdx?_eq_some_iff {s si u : Shape} (D : ScatterDims s si u) {w : ℕ} (j : u.Idx) (idx : IVec si w)
    (i : s.Idx) :
    D.resultIdx? j idx = some i ↔ ∀ a, D.start j idx a + (D.window j a : ℤ) = ((i a).val : ℤ) := by
  unfold ScatterDims.resultIdx?
  constructor
  · intro h
    split at h
    · rename_i hall
      have h' := Option.some.inj h
      intro a
      have := congrArg (fun f : s.Idx => ((f a).val : ℤ)) h'
      simp only at this
      rw [← this]; exact (Int.toNat_of_nonneg (hall a).1).symm
    · exact absurd h (by simp)
  · intro h
    have hall : ∀ a, 0 ≤ D.start j idx a + D.window j a ∧ D.start j idx a + D.window j a < s.size a := by
      intro a; rw [h a]; exact ⟨Int.natCast_nonneg _, by exact_mod_cast (i a).isLt⟩
    rw [dif_pos hall]
    congr 1; funext a; refine Fin.ext ?_
    show (D.start j idx a + D.window j a).toNat = (i a).val
    rw [h a]; exact Int.toNat_natCast _

/-- A row update (e, k') lands at (n, k) exactly when the destination index of e, read signed, is n and k' = k. -/
theorem rowScatter_resultIdx?_eq_some
    (wf : ScatterDims.WF ⟨2, ![N, K]⟩ ⟨2, ![E, 1]⟩ ⟨2, ![E, K]⟩ [1] [0] [0] 1)
    (d : Ends E) (e : Fin E) (k' : Fin K) (n : Fin N) (k : Fin K) :
    (rowScatter N E K wf).resultIdx? (ix2 e k') d = some (ix2 n k) ↔ (d (ix2 e (0 : Fin 1))).toInt = (n.val : ℤ) ∧ k' = k := by
  -- on the row axis: the start is the destination index, the window coordinate is 0
  have hs0 : (rowScatter N E K wf).start (ix2 e k') d (0 : Fin 2) = (d (ix2 e (0 : Fin 1))).toInt := by
    unfold ScatterDims.start
    rw [dif_pos (show (0 : Fin 2) ∈ (rowScatter N E K wf).scatterDimsToOperandDims from List.mem_singleton.mpr rfl)]
    have hsi : (rowScatter N E K wf).siIdx (ix2 e k') ⟨List.idxOf (0 : Fin 2) (rowScatter N E K wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowScatter N E K wf).window (ix2 e k') (0 : Fin 2) = 0 := by
    unfold ScatterDims.window
    rw [dif_neg (show (0 : Fin 2) ∉ (rowScatter N E K wf).sKept from
      fun h => absurd (List.mem_singleton.mpr rfl) (of_decide_eq_true (List.mem_filter.mp h).2))]
  -- on the column axis: no start, the window coordinate is k'
  have hs1 : (rowScatter N E K wf).start (ix2 e k') d (1 : Fin 2) = 0 := by
    unfold ScatterDims.start
    rw [dif_neg (show (1 : Fin 2) ∉ (rowScatter N E K wf).scatterDimsToOperandDims from
      fun h => absurd (congrArg Fin.val (List.mem_singleton.mp h)) Nat.one_ne_zero)]
  have hw1 : (rowScatter N E K wf).window (ix2 e k') (1 : Fin 2) = k'.val := rfl
  rw [resultIdx?_eq_some_iff]
  constructor
  · intro h
    have e0 := h (0 : Fin 2)
    have e1 := h (1 : Fin 2)
    rw [hs0, hw0] at e0
    rw [hs1, hw1] at e1
    refine ⟨by simpa using e0, Fin.ext ?_⟩
    have : ((k'.val : ℕ) : ℤ) = (k.val : ℤ) := by simpa using e1
    exact_mod_cast this
  · rintro ⟨h0, rfl⟩ a
    match a with
    | ⟨0, _⟩ =>
      show (rowScatter N E K wf).start (ix2 e k') d (0 : Fin 2) + ((rowScatter N E K wf).window (ix2 e k') (0 : Fin 2) : ℤ) = _
      rw [hs0, hw0, h0]; simp
    | ⟨1, _⟩ =>
      show (rowScatter N E K wf).start (ix2 e k') d (1 : Fin 2) + ((rowScatter N E K wf).window (ix2 e k') (1 : Fin 2) : ℤ) = _
      rw [hs1, hw1]; simp

/-- A scalar update e lands at n exactly when the destination index of e, read signed, is n. -/
theorem vecScatter_resultIdx?_eq_some
    (wf : ScatterDims.WF ⟨1, ![N]⟩ ⟨2, ![E, 1]⟩ ⟨1, ![E]⟩ [] [0] [0] 1)
    (d : Ends E) (e : Fin E) (n : Fin N) :
    (vecScatter N E wf).resultIdx? (ix1 e) d = some (ix1 n) ↔ (d (ix2 e (0 : Fin 1))).toInt = (n.val : ℤ) := by
  -- on the one axis: the start is the destination index, the window coordinate is 0
  have hs0 : (vecScatter N E wf).start (ix1 e) d (0 : Fin 1) = (d (ix2 e (0 : Fin 1))).toInt := by
    unfold ScatterDims.start
    rw [dif_pos (show (0 : Fin 1) ∈ (vecScatter N E wf).scatterDimsToOperandDims from List.mem_singleton.mpr rfl)]
    have hsi : (vecScatter N E wf).siIdx (ix1 e) ⟨List.idxOf (0 : Fin 1) (vecScatter N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N E wf).window (ix1 e) (0 : Fin 1) = 0 := by
    unfold ScatterDims.window
    rw [dif_neg (show (0 : Fin 1) ∉ (vecScatter N E wf).sKept from
      fun h => absurd (List.mem_singleton.mpr rfl) (of_decide_eq_true (List.mem_filter.mp h).2))]
  rw [resultIdx?_eq_some_iff]
  constructor
  · intro h
    have e0 := h (0 : Fin 1)
    rw [hs0, hw0] at e0
    simpa using e0
  · intro h0 a
    match a with
    | ⟨0, _⟩ =>
      show (vecScatter N E wf).start (ix1 e) d (0 : Fin 1) + ((vecScatter N E wf).window (ix1 e) (0 : Fin 1) : ℤ) = _
      rw [hs0, hw0, h0]; simp

/-! ## The scatters read at an index -/

/-- THE SCATTER OF ROWS READ AT (n, k): the operand's entry plus the updates (e, k) over the in-edges e of n. -/
theorem scatter_rows_apply
    (wf : ScatterDims.WF ⟨2, ![N, K]⟩ ⟨2, ![E, 1]⟩ ⟨2, ![E, K]⟩ [1] [0] [0] 1)
    (x : Mat N K) (d : Ends E) (u : Mat E K) (n : Fin N) (k : Fin K) :
    Ideal.hostScatterAdd (rowScatter N E K wf) x d u (ix2 n k) = x (ix2 n k) + ∑ e ∈ inEdges d n, u (ix2 e k) := by
  unfold Ideal.hostScatterAdd
  congr 1
  symm
  -- the updates that land at (n, k) are the (e, k), e an in-edge of n
  refine Finset.sum_bij (fun e _ => ix2 e k) ?_ ?_ ?_ ?_
  · intro e he
    rw [Finset.mem_filter]
    exact ⟨Finset.mem_univ _, (rowScatter_resultIdx?_eq_some wf d e k n k).mpr ⟨(Finset.mem_filter.mp he).2, rfl⟩⟩
  · intro e _ e' _ h
    exact congrArg (fun f : (⟨2, ![E, K]⟩ : Shape).Idx => f 0) h
  · intro j hj
    have hj' := (Finset.mem_filter.mp hj).2
    rw [eq_ix2 j] at hj'
    obtain ⟨h0, h1⟩ := (rowScatter_resultIdx?_eq_some wf d (j 0) (j 1) n k).mp hj'
    refine ⟨j 0, Finset.mem_filter.mpr ⟨Finset.mem_univ _, h0⟩, ?_⟩
    show ix2 (j 0) k = j
    rw [← h1]; exact (eq_ix2 j).symm
  · intro e _; rfl

/-- THE SCATTER OF SCALARS READ AT n: the operand's entry plus the updates e over the in-edges e of n. -/
theorem scatter_vec_apply
    (wf : ScatterDims.WF ⟨1, ![N]⟩ ⟨2, ![E, 1]⟩ ⟨1, ![E]⟩ [] [0] [0] 1)
    (x : (⟨1, ![N]⟩ : Shape).Idx → EReal) (d : Ends E) (u : (⟨1, ![E]⟩ : Shape).Idx → EReal) (n : Fin N) :
    Ideal.hostScatterAdd (vecScatter N E wf) x d u (ix1 n) = x (ix1 n) + ∑ e ∈ inEdges d n, u (ix1 e) := by
  unfold Ideal.hostScatterAdd
  congr 1
  symm
  -- the updates that land at n are the in-edges of n
  refine Finset.sum_bij (fun e _ => ix1 e) ?_ ?_ ?_ ?_
  · intro e he
    rw [Finset.mem_filter]
    exact ⟨Finset.mem_univ _, (vecScatter_resultIdx?_eq_some wf d e n).mpr (Finset.mem_filter.mp he).2⟩
  · intro e _ e' _ h
    exact congrArg (fun f : (⟨1, ![E]⟩ : Shape).Idx => f 0) h
  · intro j hj
    have hj' := (Finset.mem_filter.mp hj).2
    rw [eq_ix1 j] at hj'
    have h0 := (vecScatter_resultIdx?_eq_some wf d (j 0) n).mp hj'
    exact ⟨j 0, Finset.mem_filter.mpr ⟨Finset.mem_univ _, h0⟩, (eq_ix1 j).symm⟩
  · intro e _; rfl

/-! ## The mean aggregation in the host's operations -/

/-- The whole mean aggregation in the host's operations, read at (n, k): the scatter of the taken rows into a zero
    table, divided by the scatter of ones into a zero vector, raised to at least one and spread along the rows, is
    the mean aggregate over the in-edges of n. -/
theorem agg_ops_apply (hN : 0 < N)
    (wfG : GatherDims.WF ⟨2, ![N, K]⟩ ⟨2, ![E, 1]⟩ ⟨2, ![E, K]⟩ [1] [0] [] [0] [] 1 ![1, K])
    (wfS : ScatterDims.WF ⟨2, ![N, K]⟩ ⟨2, ![E, 1]⟩ ⟨2, ![E, K]⟩ [1] [0] [0] 1)
    (wfV : ScatterDims.WF ⟨1, ![N]⟩ ⟨2, ![E, 1]⟩ ⟨1, ![E]⟩ [] [0] [0] 1)
    (hz : (⟨0, ![]⟩ : Shape).BroadcastsInDim ⟨2, ![N, K]⟩ (![] : Fin 0 → Fin 2))
    (hzN : (⟨0, ![]⟩ : Shape).BroadcastsInDim ⟨1, ![N]⟩ (![] : Fin 0 → Fin 1))
    (hzE : (⟨0, ![]⟩ : Shape).BroadcastsInDim ⟨1, ![E]⟩ (![] : Fin 0 → Fin 1))
    (h0 : (⟨1, ![N]⟩ : Shape).BroadcastsInDim ⟨2, ![N, 1]⟩ (![0] : Fin 1 → Fin 2))
    (h01 : (⟨2, ![N, 1]⟩ : Shape).BroadcastsInDim ⟨2, ![N, K]⟩ (![0, 1] : Fin 2 → Fin 2))
    (s d : Ends E) (y : FVec Ideal ⟨2, ![N, K]⟩ .f32) (n : Fin N) (k : Fin K) :
    Host.divf
      (Host.scatterAdd (rowScatter N E K wfS) (broadcastInDim ⟨2, ![N, K]⟩ ![] hz (constant (F := Ideal) ⟨0, ![]⟩ .f32 0x00000000#32)) d
        (Host.gather (rowGather N E K wfG) y s))
      (broadcastInDim ⟨2, ![N, K]⟩ ![0, 1] h01 (broadcastInDim ⟨2, ![N, 1]⟩ ![0] h0
        (maximumf
          (Host.scatterAdd (vecScatter N E wfV) (broadcastInDim ⟨1, ![N]⟩ ![] hzN (constant (F := Ideal) ⟨0, ![]⟩ .f32 0x00000000#32)) d
            (broadcastInDim ⟨1, ![E]⟩ ![] hzE (constant (F := Ideal) ⟨0, ![]⟩ .f32 0x3F800000#32)))
          (broadcastInDim ⟨1, ![N]⟩ ![] hzN (constant (F := Ideal) ⟨0, ![]⟩ .f32 0x3F800000#32))))) (ix2 n k)
      = aggAt hN s d y n k := by
  rw [hostDivf_apply]
  unfold aggAt
  congr 1
  · -- the numerator: the zero table plus the taken rows summed over the in-edges
    show Ideal.hostScatterAdd (rowScatter N E K wfS) _ d _ (ix2 n k) = _
    rw [scatter_rows_apply, broadcastInDim_scalar_apply, constant_apply, Ideal.ofBits_zero_f32, zero_add]
    exact Finset.sum_congr rfl fun e _ => gather_rows_apply hN wfG y s e k
  · -- the divisor: the count of in-edges, raised to at least one, the same along the row
    rw [broadcastInDim_apply _ h01 _ (ix2 n k) (ix2 n (0 : Fin 1)) ?_, broadcastInDim_apply _ h0 _ (ix2 n (0 : Fin 1)) (ix1 n) ?_]
    · rw [maximumf_apply]
      unfold degree
      congr 1
      · show Ideal.hostScatterAdd (vecScatter N E wfV) _ d _ (ix1 n) = _
        rw [scatter_vec_apply, broadcastInDim_scalar_apply, constant_apply, Ideal.ofBits_zero_f32, zero_add]
        refine Finset.sum_congr rfl fun e _ => ?_
        rw [broadcastInDim_scalar_apply, constant_apply, Ideal.ofBits_one_f32]
      · rw [broadcastInDim_scalar_apply, constant_apply, Ideal.ofBits_one_f32]
    · intro a
      match a with
      | ⟨0, _⟩ =>
        show n.val = if N = 1 then 0 else n.val
        split
        · have := n.isLt; omega
        · rfl
    · intro a
      match a with
      | ⟨0, _⟩ =>
        show n.val = if N = 1 then 0 else n.val
        split
        · have := n.isLt; omega
        · rfl
      | ⟨1, _⟩ => exact (if_pos rfl).symm

end Sage

end
-- ==== Proof.Layer1Blocks.lean ====
/-
  The first layer's region, from blocks to whole arrays.

  The region walks the 100000 rows of the node features x and of the neighbour means a in 50 blocks of 2000 rows;
  the two 128 × 128 weights, the bias row and the 128 × 64 weight of the next layer are each one block, the same at
  every point. At a point the body forms, for its 2000 rows, h = max (x W + a W' + b) 0 and z = h W'', each product a
  sum over the 128 contracted coordinates, and writes them to rows 2000 t ... 2000 t + 1999 of the two result arrays.
  Entry (r, j) of h and of z depends on row r of x and a only, so each written block is the restriction to its rows
  of ONE table defined on all 100000 rows, and the 50 blocks cover every row: the arrays after the region are those
  tables.
-/
import proofs.«404498_j87282325390023_4_alg».proof.Proof.Gen.KernelIdeal.Frame
import proofs.«404498_j87282325390023_4_alg».proof.Proof.SageSpec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- A 2000 × 128 by 128 × 128 product into the zero accumulator, at entry (p, j): the sum over the contracted
    coordinate of the products of the entries. -/
theorem product128_apply (A : FVec Ideal S2000x128 .bf16) (B : FVec Ideal S128x128 .bf16) (p : Fin 2000) (j : Fin 128) :
    matmul dot_S2000x128_S128x128_S2000x128_1_0_0_1_n_n none A B (constant (F := Ideal) S2000x128 .f32 0x00000000#32) (ix2 p j)
      = ∑ c : Fin 128, A (ix2 p c) * B (ix2 c j) := by
  show matmul (DotDims.plain 2000 128 128) none A B (constant (F := Ideal) ⟨2, ![2000, 128]⟩ .f32 0x00000000#32) (ix2 p j) = _
  rw [matmul_zero_eq_dotGeneral]
  exact StackMember.dotGeneral_plain_apply none A B p j

/-- A 2000 × 128 by 128 × 64 product into the zero accumulator, at entry (p, j). -/
theorem product64_apply (A : FVec Ideal S2000x128 .bf16) (B : FVec Ideal S128x64 .bf16) (p : Fin 2000) (j : Fin 64) :
    matmul dot_S2000x128_S128x64_S2000x64_1_0_0_1_n_n none A B (constant (F := Ideal) S2000x64 .f32 0x00000000#32) (ix2 p j)
      = ∑ c : Fin 128, A (ix2 p c) * B (ix2 c j) := by
  show matmul (DotDims.plain 2000 128 64) none A B (constant (F := Ideal) ⟨2, ![2000, 64]⟩ .f32 0x00000000#32) (ix2 p j) = _
  rw [matmul_zero_eq_dotGeneral]
  exact StackMember.dotGeneral_plain_apply none A B p j

/-- The body's first result at entry (p, j) of its block: the hidden layer's entry of the block's rows. -/
theorem hidden_block_apply (x0 x1 : Vec Ideal S2000x128 .f32) (w1 w2 : Vec Ideal S128x128 .f32) (b : Vec Ideal S1x128 .f32)
    (p : Fin 2000) (j : Fin 128) :
    k0_pay1 x0 x1 w1 w2 b (ix2 p j) = Sage.hiddenAt (M := 2000) x0 x1 w1 w2 b p j := by
  unfold k0_pay1
  rw [maximumf_apply, addf_apply, addf_apply, product128_apply, product128_apply, shapeCast_self, shapeCast_self, broadcastTo_1b_ab_apply, broadcast_apply]
  show max _ (Ideal.ofBits .f32 0x00000000#32) = _
  rw [Ideal.ofBits_zero_f32]
  rfl

/-! ## The blocks the region stages, as rows of the arrays it finds -/

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the grid's 50 points, decided: the four row-blocked windows (x, the neighbour means, and
    the two results) are at block row t, column block 0; the weights and the bias row are at block (0, 0). -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Entry (p, k) of the block of x at point t is entry (2000 t + p, k) of x. -/
theorem x_block_apply (c : Dev nD) (t : Fin cfg0.N) (y : S2000x128.Idx) (i : S100000x128.Idx)
    (h0 : (i 0).val = 2000 * t.val + (y 0).val) (h1 : (i 1).val = (y 1).val) :
    (iblk0 V c 0 t : Vec Ideal S2000x128 .f32) y = (V c main_arg0 : S100000x128.Idx → EReal) i := by
  obtain ⟨e0, e1, -⟩ := block_indices0 t
  unfold iblk0
  rw [View.read_apply]
  show V c main_arg0 _ = V c main_arg0 _
  congr 1
  funext a; apply Fin.ext
  match a with
  | ⟨0, _⟩ => show win0_0.index t 0 * 2000 + 1 * (y 0).val = (i 0).val; rw [e0, h0]; omega
  | ⟨1, _⟩ => show win0_0.index t 1 * 128 + 1 * (y 1).val = (i 1).val; rw [e1, h1]; omega

/-- Entry (p, k) of the block of the neighbour means at point t is entry (2000 t + p, k) of that array. -/
theorem a_block_apply (c : Dev nD) (t : Fin cfg0.N) (y : S2000x128.Idx) (i : S100000x128.Idx)
    (h0 : (i 0).val = 2000 * t.val + (y 0).val) (h1 : (i 1).val = (y 1).val) :
    (iblk0 V c 1 t : Vec Ideal S2000x128 .f32) y = (V c main_v22 : S100000x128.Idx → EReal) i := by
  obtain ⟨-, -, e0, e1, -⟩ := block_indices0 t
  unfold iblk0
  rw [View.read_apply]
  show V c main_v22 _ = V c main_v22 _
  congr 1
  funext a; apply Fin.ext
  match a with
  | ⟨0, _⟩ => show win0_1.index t 0 * 2000 + 1 * (y 0).val = (i 0).val; rw [e0, h0]; omega
  | ⟨1, _⟩ => show win0_1.index t 1 * 128 + 1 * (y 1).val = (i 1).val; rw [e1, h1]; omega

/-- The one block of the first weight is the whole weight, at every point. -/
theorem wself_block_eq (c : Dev nD) (t : Fin cfg0.N) :
    (iblk0 V c 2 t : Vec Ideal S128x128 .f32) = (V c main_arg2 : S128x128.Idx → EReal) := by
  obtain ⟨-, -, -, -, e0, e1, -⟩ := block_indices0 t
  funext y
  unfold iblk0
  rw [View.read_apply]
  show V c main_arg2 _ = V c main_arg2 _
  congr 1
  funext a; apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The one block of the second weight is the whole weight, at every point. -/
theorem wneigh_block_eq (c : Dev nD) (t : Fin cfg0.N) :
    (iblk0 V c 3 t : Vec Ideal S128x128 .f32) = (V c main_arg3 : S128x128.Idx → EReal) := by
  obtain ⟨-, -, -, -, -, -, e0, e1, -⟩ := block_indices0 t
  funext y
  unfold iblk0
  rw [View.read_apply]
  show V c main_arg3 _ = V c main_arg3 _
  congr 1
  funext a; apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The one block of the bias row is the whole row, at every point. -/
theorem bias_block_eq (c : Dev nD) (t : Fin cfg0.N) :
    (iblk0 V c 4 t : Vec Ideal S1x128 .f32) = (V c main_v23 : S1x128.Idx → EReal) := by
  obtain ⟨-, -, -, -, -, -, -, -, e0, e1, -⟩ := block_indices0 t
  funext y
  unfold iblk0
  rw [View.read_apply]
  show V c main_v23 _ = V c main_v23 _
  congr 1
  funext a; apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- The one block of the next layer's weight is the whole weight, at every point. -/
theorem wnext_block_eq (c : Dev nD) (t : Fin cfg0.N) :
    (iblk0 V c 5 t : Vec Ideal S128x64 .f32) = (V c main_arg6 : S128x64.Idx → EReal) := by
  obtain ⟨-, -, -, -, -, -, -, -, -, -, e0, e1, -⟩ := block_indices0 t
  funext y
  unfold iblk0
  rw [View.read_apply]
  show V c main_arg6 _ = V c main_arg6 _
  congr 1
  funext a; apply Fin.ext
  match a with
  | ⟨0, _⟩ => show win0_5.index t 0 * 128 + 1 * (y 0).val = (y 0).val; rw [e0]; omega
  | ⟨1, _⟩ => show win0_5.index t 1 * 64 + 1 * (y 1).val = (y 1).val; rw [e1]; omega

/-! ## A block's entries as entries of the whole tables -/

/-- An entry of the hidden layer depends on its own row of x and of the neighbour means only. -/
theorem hiddenAt_of_rows {M M' : ℕ} (X A : Sage.Mat M 128) (X' A' : Sage.Mat M' 128) (W W' : Sage.Mat 128 128)
    (b : Sage.Mat 1 128) (r : Fin M) (r' : Fin M') (j : Fin 128)
    (hX : ∀ c : Fin 128, X (ix2 r c) = X' (ix2 r' c)) (hA : ∀ c : Fin 128, A (ix2 r c) = A' (ix2 r' c)) :
    Sage.hiddenAt X A W W' b r j = Sage.hiddenAt X' A' W W' b r' j := by
  unfold Sage.hiddenAt Sage.linAt
  simp only [hX, hA]

/-- The body's first result at an entry of its block is the hidden layer of the whole arrays at the entry the block
    row stands for, when the two row-blocked operands hold those rows. -/
theorem hidden_point (X A : Sage.Mat 100000 128) (W W' : Sage.Mat 128 128) (b : Sage.Mat 1 128)
    (x0 x1 : Vec Ideal S2000x128 .f32) (y : S2000x128.Idx) (i : S100000x128.Idx)
    (hX : ∀ k : Fin 128, x0 (ix2 (y 0) k) = X (ix2 (i 0) k))
    (hA : ∀ k : Fin 128, x1 (ix2 (y 0) k) = A (ix2 (i 0) k))
    (hj : y 1 = i 1) :
    k0_pay1 x0 x1 W W' b y = Sage.hidden X A W W' b i := by
  obtain ⟨p, q, rfl⟩ : ∃ (p : Fin 2000) (q : Fin 128), y = ix2 p q := ⟨y 0, y 1, eq_ix2 y⟩
  rw [hidden_block_apply]
  have hq : q = i 1 := hj
  show _ = Sage.hiddenAt X A W W' b (i 0) (i 1)
  rw [← hq]
  exact hiddenAt_of_rows x0 x1 X A W W' b p (i 0) q hX hA

/-! ## What a point writes back, and the arrays after the region -/

/-- Point t writes to the first result the rows 2000 t ... 2000 t + 1999 of the hidden layer of the whole arrays. -/
theorem hidden_flushed (c : Dev nD) (t : Fin cfg0.N) :
    (dat0 (F := Ideal) V c).flushed 6 t = ((cfg0.win 6).blk t).view.read (Elt Ideal)
      (Sage.hidden (M := 100000) (V c main_arg0) (V c main_v22) (V c main_arg2) (V c main_arg3) (V c main_v23)) := by
  show (cfg0.win 6).cut (grid0.coords t) ((dat0 V c).after 6 t) = _
  rw [after0_6]
  unfold out0_6
  rw [View.canon_unit_zero zero_offsets]
  simp only [View.ld_unit_zero (S := S2000x128) zero_offsets, View.ld_unit_zero (S := S128x128) zero_offsets,
    View.ld_unit_zero (S := S1x128) zero_offsets]
  rw [wself_block_eq, wneigh_block_eq, bias_block_eq]
  funext y
  obtain ⟨-, -, -, -, -, -, -, -, -, -, -, -, e0, e1, -⟩ := block_indices0 t
  refine hidden_point (V c main_arg0) (V c main_v22) (V c main_arg2) (V c main_arg3) (V c main_v23)
    (iblk0 V c 0 t) (iblk0 V c 1 t) y (((cfg0.win 6).blk t).view.emb y) (fun k => ?_) (fun k => ?_) ?_
  · refine x_block_apply V c t (ix2 (y 0) k) (ix2 ((((cfg0.win 6).blk t).view.emb y) 0) k) ?_ rfl
    show win0_6.index t 0 * 2000 + 1 * (y 0).val = 2000 * t.val + (y 0).val
    rw [e0]; omega
  · refine a_block_apply V c t (ix2 (y 0) k) (ix2 ((((cfg0.win 6).blk t).view.emb y) 0) k) ?_ rfl
    show win0_6.index t 0 * 2000 + 1 * (y 0).val = 2000 * t.val + (y 0).val
    rw [e0]; omega
  · apply Fin.ext
    show (y 1).val = win0_6.index t 1 * 128 + 1 * (y 1).val
    rw [e1]; omega

/-- An index of the first result lies in point t's block when each coordinate lies in the block's range on its axis. -/
theorem mem_hidden_block (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v24_0).slice (win0_6.rect t)).set ↔ _
  rw [View.set_slice_whole, Rect.mem_set_unit]
  exact Iff.rfl

/-- Every entry of the first result is written: row r by point r / 2000. -/
theorem hidden_cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := rfl
  have ht : (i 0).val / 2000 < cfg0.N := by rw [hN]; omega
  obtain ⟨-, -, -, -, -, -, -, -, -, -, -, -, e0, e1, -⟩ := block_indices0 ⟨(i 0).val / 2000, ht⟩
  refine ⟨⟨(i 0).val / 2000, ht⟩, flush0_6 _, ?_⟩
  rw [mem_hidden_block]
  intro a
  match a with
  | ⟨0, _⟩ =>
    show win0_6.index ⟨(i 0).val / 2000, ht⟩ 0 * 2000 ≤ (i 0).val ∧ (i 0).val < win0_6.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ 1 * 128 ≤ (i 1).val ∧ (i 1).val < win0_6.index ⟨(i 0).val / 2000, ht⟩ 1 * 128 + 128
    rw [e1]; omega

/-- THE FIRST RESULT after the region: the hidden layer of the arrays the region finds. -/
theorem hidden_array (c : Dev nD) : (dat0 (F := Ideal) V c).arrAt 6 cfg0.N
    = Sage.hidden (M := 100000) (V c main_arg0) (V c main_v22) (V c main_arg2) (V c main_arg3) (V c main_v23) :=
  (dat0 V c).arrAt_eq_of_cover 6 _ (fun t _ => hidden_flushed V c t) hidden_cover

/-! ## The second result: the hidden layer multiplied by the next layer's weight -/

/-- The body's second result at entry (p, j) of its block: row p of the block's hidden layer against column j of the
    next layer's weight. -/
theorem proj_block_apply (x0 x1 : Vec Ideal S2000x128 .f32) (w1 w2 : Vec Ideal S128x128 .f32) (b : Vec Ideal S1x128 .f32)
    (w3 : Vec Ideal S128x64 .f32) (p : Fin 2000) (j : Fin 64) :
    k0_pay2 x0 x1 w1 w2 b w3 (ix2 p j) = ∑ k : Fin 128, Sage.hiddenAt (M := 2000) x0 x1 w1 w2 b p k * w3 (ix2 k j) := by
  unfold k0_pay2
  rw [truncf_apply, product64_apply]
  refine Finset.sum_congr rfl fun k _ => ?_
  rw [truncf_apply, truncf_apply, hidden_block_apply]

/-- The body's second result at an entry of its block is the product of the whole hidden layer with the weight at the
    entry the block row stands for, when the two row-blocked operands hold those rows. -/
theorem proj_point (X A : Sage.Mat 100000 128) (W W' : Sage.Mat 128 128) (b : Sage.Mat 1 128) (W3 : Sage.Mat 128 64)
    (x0 x1 : Vec Ideal S2000x128 .f32) (y : S2000x64.Idx) (i : S100000x64.Idx)
    (hX : ∀ k : Fin 128, x0 (ix2 (y 0) k) = X (ix2 (i 0) k))
    (hA : ∀ k : Fin 128, x1 (ix2 (y 0) k) = A (ix2 (i 0) k))
    (hj : y 1 = i 1) :
    k0_pay2 x0 x1 W W' b W3 y = Sage.lin (Sage.hidden X A W W' b) W3 i := by
  obtain ⟨p, q, rfl⟩ : ∃ (p : Fin 2000) (q : Fin 64), y = ix2 p q := ⟨y 0, y 1, eq_ix2 y⟩
  rw [proj_block_apply]
  have hq : q = i 1 := hj
  show _ = Sage.linAt (Sage.hidden X A W W' b) W3 (i 0) (i 1)
  rw [← hq]
  unfold Sage.linAt
  refine Finset.sum_congr rfl fun k _ => ?_
  show Sage.hiddenAt x0 x1 W W' b p k * _ = Sage.hiddenAt X A W W' b (i 0) k * _
  rw [hiddenAt_of_rows x0 x1 X A W W' b p (i 0) k hX hA]

/-- Point t writes to the second result the rows 2000 t ... 2000 t + 1999 of that product. -/
theorem proj_flushed (c : Dev nD) (t : Fin cfg0.N) :
    (dat0 (F := Ideal) V c).flushed 7 t = ((cfg0.win 7).blk t).view.read (Elt Ideal)
      (Sage.lin (Sage.hidden (M := 100000) (V c main_arg0) (V c main_v22) (V c main_arg2) (V c main_arg3) (V c main_v23))
        (V c main_arg6)) := by
  show (cfg0.win 7).cut (grid0.coords t) ((dat0 V c).after 7 t) = _
  rw [after0_7]
  unfold out0_7
  rw [View.canon_unit_zero zero_offsets]
  simp only [View.ld_unit_zero (S := S2000x128) zero_offsets, View.ld_unit_zero (S := S128x128) zero_offsets,
    View.ld_unit_zero (S := S1x128) zero_offsets, View.ld_unit_zero (S := S128x64) zero_offsets]
  rw [wself_block_eq, wneigh_block_eq, bias_block_eq, wnext_block_eq]
  funext y
  obtain ⟨-, -, -, -, -, -, -, -, -, -, -, -, -, -, e0, e1⟩ := block_indices0 t
  refine proj_point (V c main_arg0) (V c main_v22) (V c main_arg2) (V c main_arg3) (V c main_v23) (V c main_arg6)
    (iblk0 V c 0 t) (iblk0 V c 1 t) y (((cfg0.win 7).blk t).view.emb y) (fun k => ?_) (fun k => ?_) ?_
  · refine x_block_apply V c t (ix2 (y 0) k) (ix2 ((((cfg0.win 7).blk t).view.emb y) 0) k) ?_ rfl
    show win0_7.index t 0 * 2000 + 1 * (y 0).val = 2000 * t.val + (y 0).val
    rw [e0]; omega
  · refine a_block_apply V c t (ix2 (y 0) k) (ix2 ((((cfg0.win 7).blk t).view.emb y) 0) k) ?_ rfl
    show win0_7.index t 0 * 2000 + 1 * (y 0).val = 2000 * t.val + (y 0).val
    rw [e0]; omega
  · apply Fin.ext
    show (y 1).val = win0_7.index t 1 * 64 + 1 * (y 1).val
    rw [e1]; omega

/-- An index of the second result lies in point t's block when each coordinate lies in the block's range on its axis. -/
theorem mem_proj_block (t : Fin cfg0.N) (i : S100000x64.Idx) :
    i ∈ ((cfg0.win 7).blk t).view.set ↔ ∀ a : Fin 2, win0_7.index t a * S2000x64.size a ≤ (i a).val
      ∧ (i a).val < win0_7.index t a * S2000x64.size a + S2000x64.size a := by
  show i ∈ ((View.whole main_v24_1).slice (win0_7.rect t)).set ↔ _
  rw [View.set_slice_whole, Rect.mem_set_unit]
  exact Iff.rfl

/-- Every entry of the second result is written: row r by point r / 2000. -/
theorem proj_cover (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 50 := rfl
  have ht : (i 0).val / 2000 < cfg0.N := by rw [hN]; omega
  obtain ⟨-, -, -, -, -, -, -, -, -, -, -, -, -, -, e0, e1⟩ := block_indices0 ⟨(i 0).val / 2000, ht⟩
  refine ⟨⟨(i 0).val / 2000, ht⟩, flush0_7 _, ?_⟩
  rw [mem_proj_block]
  intro a
  match a with
  | ⟨0, _⟩ =>
    show win0_7.index ⟨(i 0).val / 2000, ht⟩ 0 * 2000 ≤ (i 0).val ∧ (i 0).val < win0_7.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_7.index ⟨(i 0).val / 2000, ht⟩ 1 * 64 ≤ (i 1).val ∧ (i 1).val < win0_7.index ⟨(i 0).val / 2000, ht⟩ 1 * 64 + 64
    rw [e1]; omega

/-- THE SECOND RESULT after the region: the hidden layer of the arrays the region finds, multiplied by the next
    layer's weight (stored in the narrower float format, which changes no ideal value). -/
theorem proj_array (c : Dev nD) : (dat0 (F := Ideal) V c).arrAt 7 cfg0.N
    = Sage.lin (Sage.hidden (M := 100000) (V c main_arg0) (V c main_v22) (V c main_arg2) (V c main_arg3) (V c main_v23))
        (V c main_arg6) :=
  (dat0 V c).arrAt_eq_of_cover 7 _ (fun t _ => proj_flushed V c t) proj_cover

end Cert.KernelIdeal.Blocks

end
-- ==== Proof.Layer2Blocks.lean ====
/-
  The second layer's region, from blocks to the whole array.

  The region walks the 100000 rows of the hidden layer h and of the neighbour term a (already multiplied by its
  weight) in 50 blocks of 2000 rows; the 128 × 64 weight and the bias row are each one block, the same at every
  point. At a point the body forms, for its 2000 rows, h W + a + b, the product a sum over the 128 contracted
  coordinates, and writes it to rows 2000 t ... 2000 t + 1999 of the result. Entry (r, j) depends on row r of h and on
  entry (r, j) of a only, so each written block is the restriction to its rows of ONE table defined on all 100000
  rows, and the 50 blocks cover every row: the array after the region is that table.
-/
import proofs.«404498_j87282325390023_4_alg».proof.Proof.Gen.KernelIdeal.Frame
import proofs.«404498_j87282325390023_4_alg».proof.Proof.SageSpec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- The 2000 × 128 by 128 × 64 product of the output layer into the zero accumulator, at entry (p, j): the sum over
    the contracted coordinate of the products of the entries. -/
theorem out_product_apply (A : FVec Ideal S2000x128 .bf16) (B : FVec Ideal S128x64 .bf16) (p : Fin 2000) (j : Fin 64) :
    matmul dot_S2000x128_S128x64_S2000x64_1_0_0_1_n_n none A B (constant (F := Ideal) S2000x64 .f32 0x00000000#32) (ix2 p j)
      = ∑ c : Fin 128, A (ix2 p c) * B (ix2 c j) := by
  show matmul (DotDims.plain 2000 128 64) none A B (constant (F := Ideal) ⟨2, ![2000, 64]⟩ .f32 0x00000000#32) (ix2 p j) = _
  rw [matmul_zero_eq_dotGeneral]
  exact StackMember.dotGeneral_plain_apply none A B p j

/-- The body's result at entry (p, j) of its block: the output layer's entry of the block's rows. -/
theorem out_block_apply (h0 : Vec Ideal S2000x128 .f32) (w : Vec Ideal S128x64 .f32) (a0 : Vec Ideal S2000x64 .f32)
    (b : Vec Ideal S1x64 .f32) (p : Fin 2000) (j : Fin 64) :
    k1_pay1 h0 w a0 b (ix2 p j) = Sage.outAt (M := 2000) h0 a0 w b p j := by
  unfold k1_pay1
  rw [addf_apply, addf_apply, out_product_apply, shapeCast_self, shapeCast_self, shapeCast_self, broadcastTo_1b_ab_apply]
  rfl

/-! ## The blocks the region stages, as rows of the arrays it finds -/

variable (V : (c : Dev nD) → (b : Ref sig .tc) → Buf (Elt Ideal) ((c : Thread nD τ).loc b))

theorem no_offsets : (![0, 0] : Fin 2 → Nat) = fun _ => 0 := funext fun a => by fin_cases a <;> rfl

/-- The block index maps over the grid's 50 points, decided: the three row-blocked windows (the hidden layer, the
    neighbour term and the result) are at block row t, column block 0; the weight and the bias row are at block (0, 0). -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, k) of the block of the hidden layer at point t is entry (2000 t + p, k) of the hidden layer. -/
theorem h_block_apply (c : Dev nD) (t : Fin cfg1.N) (y : S2000x128.Idx) (i : S100000x128.Idx)
    (h0 : (i 0).val = 2000 * t.val + (y 0).val) (h1 : (i 1).val = (y 1).val) :
    (iblk1 V c 0 t : Vec Ideal S2000x128 .f32) y = (V c main_v24_0 : S100000x128.Idx → EReal) i := by
  obtain ⟨e0, e1, -⟩ := block_indices1 t
  unfold iblk1
  rw [View.read_apply]
  show V c main_v24_0 _ = V c main_v24_0 _
  congr 1
  funext a; apply Fin.ext
  match a with
  | ⟨0, _⟩ => show win1_0.index t 0 * 2000 + 1 * (y 0).val = (i 0).val; rw [e0, h0]; omega
  | ⟨1, _⟩ => show win1_0.index t 1 * 128 + 1 * (y 1).val = (i 1).val; rw [e1, h1]; omega

/-- Entry (p, k) of the block of the neighbour term at point t is entry (2000 t + p, k) of that array. -/
theorem nb_block_apply (c : Dev nD) (t : Fin cfg1.N) (y : S2000x64.Idx) (i : S100000x64.Idx)
    (h0 : (i 0).val = 2000 * t.val + (y 0).val) (h1 : (i 1).val = (y 1).val) :
    (iblk1 V c 1 t : Vec Ideal S2000x64 .f32) y = (V c main_v44 : S100000x64.Idx → EReal) i := by
  obtain ⟨-, -, e0, e1, -⟩ := block_indices1 t
  unfold iblk1
  rw [View.read_apply]
  show V c main_v44 _ = V c main_v44 _
  congr 1
  funext a; apply Fin.ext
  match a with
  | ⟨0, _⟩ => show win1_1.index t 0 * 2000 + 1 * (y 0).val = (i 0).val; rw [e0, h0]; omega
  | ⟨1, _⟩ => show win1_1.index t 1 * 64 + 1 * (y 1).val = (i 1).val; rw [e1, h1]; omega

/-- The one block of the weight is the whole weight, at every point. -/
theorem wout_block_eq (c : Dev nD) (t : Fin cfg1.N) :
    (iblk1 V c 2 t : Vec Ideal S128x64 .f32) = (V c main_arg5 : S128x64.Idx → EReal) := by
  obtain ⟨-, -, -, -, e0, e1, -⟩ := block_indices1 t
  funext y
  unfold iblk1
  rw [View.read_apply]
  show V c main_arg5 _ = V c main_arg5 _
  congr 1
  funext a; apply Fin.ext
  match a with
  | ⟨0, _⟩ => show win1_2.index t 0 * 128 + 1 * (y 0).val = (y 0).val; rw [e0]; omega
  | ⟨1, _⟩ => show win1_2.index t 1 * 64 + 1 * (y 1).val = (y 1).val; rw [e1]; omega

/-- The one block of the bias row is the whole row, at every point. -/
theorem bout_block_eq (c : Dev nD) (t : Fin cfg1.N) :
    (iblk1 V c 3 t : Vec Ideal S1x64 .f32) = (V c main_v45 : S1x64.Idx → EReal) := by
  obtain ⟨-, -, -, -, -, -, e0, e1, -⟩ := block_indices1 t
  funext y
  unfold iblk1
  rw [View.read_apply]
  show V c main_v45 _ = V c main_v45 _
  congr 1
  funext a; apply Fin.ext
  match a with
  | ⟨0, _⟩ => show win1_3.index t 0 * 1 + 1 * (y 0).val = (y 0).val; rw [e0]; omega
  | ⟨1, _⟩ => show win1_3.index t 1 * 64 + 1 * (y 1).val = (y 1).val; rw [e1]; omega

/-! ## A block's entries as entries of the whole table -/

/-- An entry of the output layer depends on its own row of the hidden layer and its own entry of the neighbour term only. -/
theorem outAt_of_rows {M M' : ℕ} (H : Sage.Mat M 128) (A : Sage.Mat M 64) (H' : Sage.Mat M' 128) (A' : Sage.Mat M' 64)
    (W : Sage.Mat 128 64) (b : Sage.Mat 1 64) (r : Fin M) (r' : Fin M') (j : Fin 64)
    (hH : ∀ c : Fin 128, H (ix2 r c) = H' (ix2 r' c)) (hA : A (ix2 r j) = A' (ix2 r' j)) :
    Sage.outAt H A W b r j = Sage.outAt H' A' W b r' j := by
  unfold Sage.outAt Sage.linAt
  simp only [hH, hA]

/-- The body's result at an entry of its block is the output layer of the whole arrays at the entry the block row
    stands for, when the two row-blocked operands hold those rows. -/
theorem out_point (H : Sage.Mat 100000 128) (A : Sage.Mat 100000 64) (W : Sage.Mat 128 64) (b : Sage.Mat 1 64)
    (h0 : Vec Ideal S2000x128 .f32) (a0 : Vec Ideal S2000x64 .f32) (y : S2000x64.Idx) (i : S100000x64.Idx)
    (hH : ∀ k : Fin 128, h0 (ix2 (y 0) k) = H (ix2 (i 0) k))
    (hA : ∀ k : Fin 64, a0 (ix2 (y 0) k) = A (ix2 (i 0) k))
    (hj : y 1 = i 1) :
    k1_pay1 h0 W a0 b y = Sage.out H A W b i := by
  obtain ⟨p, q, rfl⟩ : ∃ (p : Fin 2000) (q : Fin 64), y = ix2 p q := ⟨y 0, y 1, eq_ix2 y⟩
  rw [out_block_apply]
  have hq : q = i 1 := hj
  show _ = Sage.outAt H A W b (i 0) (i 1)
  rw [← hq]
  exact outAt_of_rows h0 a0 H A W b p (i 0) q hH (hA q)

/-! ## What a point writes back, and the array after the region -/

/-- Point t writes to the result the rows 2000 t ... 2000 t + 1999 of the output layer of the whole arrays. -/
theorem out_flushed (c : Dev nD) (t : Fin cfg1.N) :
    (dat1 (F := Ideal) V c).flushed 4 t = ((cfg1.win 4).blk t).view.read (Elt Ideal)
      (Sage.out (M := 100000) (V c main_v24_0) (V c main_v44) (V c main_arg5) (V c main_v45)) := by
  show (cfg1.win 4).cut (grid1.coords t) ((dat1 V c).after 4 t) = _
  rw [after1_4]
  unfold out1_4
  rw [View.canon_unit_zero no_offsets]
  simp only [View.ld_unit_zero (S := S2000x128) no_offsets, View.ld_unit_zero (S := S2000x64) no_offsets,
    View.ld_unit_zero (S := S128x64) no_offsets, View.ld_unit_zero (S := S1x64) no_offsets]
  rw [wout_block_eq, bout_block_eq]
  funext y
  obtain ⟨-, -, -, -, -, -, -, -, e0, e1⟩ := block_indices1 t
  refine out_point (V c main_v24_0) (V c main_v44) (V c main_arg5) (V c main_v45)
    (iblk1 V c 0 t) (iblk1 V c 1 t) y (((cfg1.win 4).blk t).view.emb y) (fun k => ?_) (fun k => ?_) ?_
  · refine h_block_apply V c t (ix2 (y 0) k) (ix2 ((((cfg1.win 4).blk t).view.emb y) 0) k) ?_ rfl
    show win1_4.index t 0 * 2000 + 1 * (y 0).val = 2000 * t.val + (y 0).val
    rw [e0]; omega
  · refine nb_block_apply V c t (ix2 (y 0) k) (ix2 ((((cfg1.win 4).blk t).view.emb y) 0) k) ?_ rfl
    show win1_4.index t 0 * 2000 + 1 * (y 0).val = 2000 * t.val + (y 0).val
    rw [e0]; omega
  · apply Fin.ext
    show (y 1).val = win1_4.index t 1 * 64 + 1 * (y 1).val
    rw [e1]; omega

/-- An index of the result lies in point t's block when each coordinate lies in the block's range on its axis. -/
theorem mem_out_block (t : Fin cfg1.N) (i : S100000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_v46).slice (win1_4.rect t)).set ↔ _
  rw [View.set_slice_whole, Rect.mem_set_unit]
  exact Iff.rfl

/-- Every entry of the result is written: row r by point r / 2000. -/
theorem out_cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 50 := rfl
  have ht : (i 0).val / 2000 < cfg1.N := by rw [hN]; omega
  obtain ⟨-, -, -, -, -, -, -, -, e0, e1⟩ := block_indices1 ⟨(i 0).val / 2000, ht⟩
  refine ⟨⟨(i 0).val / 2000, ht⟩, flush1_4 _, ?_⟩
  rw [mem_out_block]
  intro a
  match a with
  | ⟨0, _⟩ =>
    show win1_4.index ⟨(i 0).val / 2000, ht⟩ 0 * 2000 ≤ (i 0).val ∧ (i 0).val < win1_4.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_4.index ⟨(i 0).val / 2000, ht⟩ 1 * 64 ≤ (i 1).val ∧ (i 1).val < win1_4.index ⟨(i 0).val / 2000, ht⟩ 1 * 64 + 64
    rw [e1]; omega

/-- THE RESULT after the region: the output layer of the arrays the region finds. -/
theorem out_array (c : Dev nD) : (dat1 (F := Ideal) V c).arrAt 4 cfg1.N
    = Sage.out (M := 100000) (V c main_v24_0) (V c main_v44) (V c main_arg5) (V c main_v45) :=
  (dat1 V c).arrAt_eq_of_cover 4 _ (fun t _ => out_flushed V c t) out_cover

end Cert.KernelIdeal.Blocks

end
-- ==== Proof.KernelValue.lean ====
/-
  What the idealized kernel computes, as one function of its arguments: the two-layer mean-aggregation network in the
  order "multiply the hidden layer by the neighbour weights, then aggregate the rows".

  @main is four segments. The first stretch of host operations aggregates the node features over each node's in-edges
  and reshapes the first bias to a row. The first region writes the hidden layer h and its product z with the second
  layer's neighbour weights. The second stretch aggregates z over the in-edges and reshapes the second bias. The second
  region writes h W₂ + agg(z) + b₂. Each boundary's contents are read back through the fold: a buffer a stretch does
  not write keeps its contents, a buffer it writes holds its operation's value of the operands' contents, and a region's
  result arrays hold one whole table each.
-/
import proofs.«404498_j87282325390023_4_alg».proof.Proof.Gen.KernelIdeal.Frame
import proofs.«404498_j87282325390023_4_alg».proof.Proof.SageNet
import proofs.«404498_j87282325390023_4_alg».proof.Proof.LibEdgeOps
import proofs.«404498_j87282325390023_4_alg».proof.Proof.Layer1Blocks
import proofs.«404498_j87282325390023_4_alg».proof.Proof.Layer2Blocks
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KerValue

open Cert.KernelIdeal Cert.KernelIdeal.Gen
open Idealize.ShloMosaic Idealize.ShloMosaic.TcCoe Idealize.SL.Sem Idealize.ShloMosaic.StableHlo Idealize.ShloMosaic.ValueIdx

/-- The table of node features has a row. -/
theorem hN : 0 < 100000 := by decide

/-- The edges' source endpoints, as @main computes them from the edge list. -/
abbrev src (x1 : IVec S2x1600000 32) : Sage.Ends 1600000 :=
  Sage.srcEnds 1600000 100000#32 slices_S2x1600000_S1x1600000_0_0 shapeCasts_S1x1600000_S1600000 bcast_S_S1600000
    bcast_S1600000_S1600000x1_0 x1
/-- The edges' destination endpoints, as @main computes them from the edge list. -/
abbrev dst (x1 : IVec S2x1600000 32) : Sage.Ends 1600000 :=
  Sage.dstEnds 1600000 slices_S2x1600000_S1x1600000_1_0 shapeCasts_S1x1600000_S1600000 bcast_S1600000_S1600000x1_0 x1

/-- Mean aggregation of a 128-column table in @main's operations. -/
def aggOps128 (x1 : IVec S2x1600000 32) (y : FVec Ideal S100000x128 .f32) : FVec Ideal S100000x128 .f32 :=
  Host.divf
    (Host.scatterAdd scatter_S100000x128_S1600000x1_S1600000x128_1_0_0_1
      (broadcastInDim S100000x128 ![] bcast_S_S100000x128 (constant S_ .f32 0x00000000#32)) (dst x1)
      (Host.gather gather_S100000x128_S1600000x1_S1600000x128_1_0_n_n_0_1_1128 y (src x1)))
    (broadcastInDim S100000x128 ![0, 1] bcast_S100000x1_S100000x128_0_1 (broadcastInDim S100000x1 ![0] bcast_S100000_S100000x1_0
      (maximumf
        (Host.scatterAdd scatter_S100000_S1600000x1_S1600000_n_0_0_1
          (broadcastInDim S100000 ![] bcast_S_S100000 (constant S_ .f32 0x00000000#32)) (dst x1)
          (broadcastInDim S1600000 ![] bcast_S_S1600000 (constant S_ .f32 0x3F800000#32)))
        (broadcastInDim S100000 ![] bcast_S_S100000 (constant S_ .f32 0x3F800000#32)))))

/-- Mean aggregation of a 64-column table in @main's operations. -/
def aggOps64 (x1 : IVec S2x1600000 32) (y : FVec Ideal S100000x64 .f32) : FVec Ideal S100000x64 .f32 :=
  Host.divf
    (Host.scatterAdd scatter_S100000x64_S1600000x1_S1600000x64_1_0_0_1
      (broadcastInDim S100000x64 ![] bcast_S_S100000x64 (constant S_ .f32 0x00000000#32)) (dst x1)
      (Host.gather gather_S100000x64_S1600000x1_S1600000x64_1_0_n_n_0_1_164 y (src x1)))
    (broadcastInDim S100000x64 ![0, 1] bcast_S100000x1_S100000x64_0_1 (broadcastInDim S100000x1 ![0] bcast_S100000_S100000x1_0
      (maximumf
        (Host.scatterAdd scatter_S100000_S1600000x1_S1600000_n_0_0_1
          (broadcastInDim S100000 ![] bcast_S_S100000 (constant S_ .f32 0x00000000#32)) (dst x1)
          (broadcastInDim S1600000 ![] bcast_S_S1600000 (constant S_ .f32 0x3F800000#32)))
        (broadcastInDim S100000 ![] bcast_S_S100000 (constant S_ .f32 0x3F800000#32)))))

/-- @main's aggregation of a 128-column table is the mean aggregate over in-edges. -/
theorem aggOps128_eq (x1 : IVec S2x1600000 32) (y : FVec Ideal S100000x128 .f32) :
    aggOps128 x1 y = Sage.agg hN (src x1) (dst x1) y := by
  funext i
  obtain ⟨n, k, rfl⟩ : ∃ (n : Fin 100000) (k : Fin 128), i = ix2 n k := ⟨i 0, i 1, eq_ix2 i⟩
  exact Sage.agg_ops_apply hN gather_S100000x128_S1600000x1_S1600000x128_1_0_n_n_0_1_1128_wf
    scatter_S100000x128_S1600000x1_S1600000x128_1_0_0_1_wf scatter_S100000_S1600000x1_S1600000_n_0_0_1_wf
    bcast_S_S100000x128 bcast_S_S100000 bcast_S_S1600000 bcast_S100000_S100000x1_0 bcast_S100000x1_S100000x128_0_1
    (src x1) (dst x1) y n k

/-- @main's aggregation of a 64-column table is the mean aggregate over in-edges. -/
theorem aggOps64_eq (x1 : IVec S2x1600000 32) (y : FVec Ideal S100000x64 .f32) :
    aggOps64 x1 y = Sage.agg hN (src x1) (dst x1) y := by
  funext i
  obtain ⟨n, k, rfl⟩ : ∃ (n : Fin 100000) (k : Fin 64), i = ix2 n k := ⟨i 0, i 1, eq_ix2 i⟩
  exact Sage.agg_ops_apply hN gather_S100000x64_S1600000x1_S1600000x64_1_0_n_n_0_1_164_wf
    scatter_S100000x64_S1600000x1_S1600000x64_1_0_0_1_wf scatter_S100000_S1600000x1_S1600000_n_0_0_1_wf
    bcast_S_S100000x64 bcast_S_S100000 bcast_S_S1600000 bcast_S100000_S100000x1_0 bcast_S100000x1_S100000x64_0_1
    (src x1) (dst x1) y n k

/-- A vector of n entries reshaped to one row is the vector as a 1 × n table. -/
theorem reshape_row {n : ℕ} (b : (⟨1, ![n]⟩ : Shape).Idx → EReal) (h : (⟨1, ![n]⟩ : Shape).ShapeCasts ⟨2, ![1, n]⟩) :
    shapeCast ⟨2, ![1, n]⟩ b h = Sage.asRow b := by
  funext i
  obtain ⟨u, j, rfl⟩ : ∃ (u : Fin 1) (j : Fin n), i = ix2 u j := ⟨i 0, i 1, eq_ix2 i⟩
  exact shapeCast_a_1a_apply b h u j

variable (m : (ℓ : Loc nD τ sig) → Buf (Elt Ideal) ℓ) (ρ : Dev nD → PrngReg)

/-! ## The first stretch of host operations: what the first region finds -/

set_option maxHeartbeats 4000000 in
theorem V1_arg0 (c : Dev nD) : V1 m ρ c main_arg0 = m ((c.tc : Thread nD τ).loc main_arg0) := by
  show StableHlo.after hostOps0 (W0 m ρ c) (Proc.devRef .tc main_arg0) = _
  after_results_simp
set_option maxHeartbeats 4000000 in
theorem V1_arg2 (c : Dev nD) : V1 m ρ c main_arg2 = m ((c.tc : Thread nD τ).loc main_arg2) := by
  show StableHlo.after hostOps0 (W0 m ρ c) (Proc.devRef .tc main_arg2) = _
  after_results_simp
set_option maxHeartbeats 4000000 in
theorem V1_arg3 (c : Dev nD) : V1 m ρ c main_arg3 = m ((c.tc : Thread nD τ).loc main_arg3) := by
  show StableHlo.after hostOps0 (W0 m ρ c) (Proc.devRef .tc main_arg3) = _
  after_results_simp
set_option maxHeartbeats 4000000 in
theorem V1_arg6 (c : Dev nD) : V1 m ρ c main_arg6 = m ((c.tc : Thread nD τ).loc main_arg6) := by
  show StableHlo.after hostOps0 (W0 m ρ c) (Proc.devRef .tc main_arg6) = _
  after_results_simp

set_option maxHeartbeats 4000000 in
/-- The neighbour means the first region finds: the mean aggregate of the node features. -/
theorem V1_v22 (c : Dev nD) :
    V1 m ρ c main_v22 = aggOps128 (m ((c.tc : Thread nD τ).loc main_arg1)) (m ((c.tc : Thread nD τ).loc main_arg0)) := by
  show StableHlo.after hostOps0 (W0 m ρ c) (Proc.devRef .tc main_v22) = _
  after_results_simp
  rfl

set_option maxHeartbeats 4000000 in
/-- The bias row the first region finds: the bias vector reshaped. -/
theorem V1_v23 (c : Dev nD) : V1 m ρ c main_v23 = Sage.asRow (m ((c.tc : Thread nD τ).loc main_arg4)) := by
  show StableHlo.after hostOps0 (W0 m ρ c) (Proc.devRef .tc main_v23) = _
  after_results_simp
  exact reshape_row (m ((c.tc : Thread nD τ).loc main_arg4)) shapeCasts_S128_S1x128

set_option maxHeartbeats 4000000 in
/-- The source endpoints' row of the edge list, kept from the first stretch. -/
theorem W1_v1 (c : Dev nD) : W1 m ρ c (Proc.devRef .tc main_v1)
    = shapeCast S1600000 (extractStridedSlice S1x1600000 ![0, 0] (m ((c.tc : Thread nD τ).loc main_arg1)) slices_S2x1600000_S1x1600000_0_0) shapeCasts_S1x1600000_S1600000 := by
  show StableHlo.after hostOps0 (W0 m ρ c) (Proc.devRef .tc main_v1) = _
  after_results_simp
  rfl
set_option maxHeartbeats 4000000 in
/-- The destination endpoints' row of the edge list, kept from the first stretch. -/
theorem W1_v3 (c : Dev nD) : W1 m ρ c (Proc.devRef .tc main_v3)
    = shapeCast S1600000 (extractStridedSlice S1x1600000 ![1, 0] (m ((c.tc : Thread nD τ).loc main_arg1)) slices_S2x1600000_S1x1600000_1_0) shapeCasts_S1x1600000_S1600000 := by
  show StableHlo.after hostOps0 (W0 m ρ c) (Proc.devRef .tc main_v3) = _
  after_results_simp
  rfl
set_option maxHeartbeats 4000000 in
theorem W1_arg5 (c : Dev nD) : W1 m ρ c (Proc.devRef .tc main_arg5) = m ((c.tc : Thread nD τ).loc main_arg5) := by
  show StableHlo.after hostOps0 (W0 m ρ c) (Proc.devRef .tc main_arg5) = _
  after_results_simp
set_option maxHeartbeats 4000000 in
theorem W1_arg7 (c : Dev nD) : W1 m ρ c (Proc.devRef .tc main_arg7) = m ((c.tc : Thread nD τ).loc main_arg7) := by
  show StableHlo.after hostOps0 (W0 m ρ c) (Proc.devRef .tc main_arg7) = _
  after_results_simp

/-! ## The first region's two results -/

/-- The hidden layer, as the first region leaves it. -/
theorem W2_hidden (c : Dev nD) : W2 m ρ c (Proc.devRef .tc main_v24_0)
    = Sage.net1 hN (src (m ((c.tc : Thread nD τ).loc main_arg1))) (dst (m ((c.tc : Thread nD τ).loc main_arg1)))
        (m ((c.tc : Thread nD τ).loc main_arg0)) (m ((c.tc : Thread nD τ).loc main_arg2)) (m ((c.tc : Thread nD τ).loc main_arg3))
        (m ((c.tc : Thread nD τ).loc main_arg4)) := by
  refine (W2_arr m ρ c 6).trans ((Blocks.hidden_array (V1 m ρ) c).trans ?_)
  rw [V1_arg0, V1_arg2, V1_arg3, V1_v22, V1_v23, aggOps128_eq]
  rfl

/-- The hidden layer times the second layer's neighbour weights, as the first region leaves it. -/
theorem W2_proj (c : Dev nD) : W2 m ρ c (Proc.devRef .tc main_v24_1)
    = Sage.lin (Sage.net1 hN (src (m ((c.tc : Thread nD τ).loc main_arg1))) (dst (m ((c.tc : Thread nD τ).loc main_arg1)))
        (m ((c.tc : Thread nD τ).loc main_arg0)) (m ((c.tc : Thread nD τ).loc main_arg2)) (m ((c.tc : Thread nD τ).loc main_arg3))
        (m ((c.tc : Thread nD τ).loc main_arg4))) (m ((c.tc : Thread nD τ).loc main_arg6)) := by
  refine (W2_arr m ρ c 7).trans ((Blocks.proj_array (V1 m ρ) c).trans ?_)
  rw [V1_arg0, V1_arg2, V1_arg3, V1_arg6, V1_v22, V1_v23, aggOps128_eq]
  rfl

/-! ## The second stretch: what the second region finds -/

set_option maxHeartbeats 4000000 in
theorem V3_hidden (c : Dev nD) : V3 m ρ c main_v24_0 = W2 m ρ c (Proc.devRef .tc main_v24_0) := by
  show StableHlo.after hostOps1 (W2 m ρ c) (Proc.devRef .tc main_v24_0) = _
  after_results_simp
set_option maxHeartbeats 4000000 in
theorem V3_arg5 (c : Dev nD) : V3 m ρ c main_arg5 = m ((c.tc : Thread nD τ).loc main_arg5) := by
  show StableHlo.after hostOps1 (W2 m ρ c) (Proc.devRef .tc main_arg5) = _
  after_results_simp
  exact (W2_of_ne m ρ c main_arg5 (by decide)).trans (W1_arg5 m ρ c)

set_option maxHeartbeats 4000000 in
/-- The bias row the second region finds: the second bias vector reshaped. -/
theorem V3_v45 (c : Dev nD) : V3 m ρ c main_v45 = Sage.asRow (m ((c.tc : Thread nD τ).loc main_arg7)) := by
  show StableHlo.after hostOps1 (W2 m ρ c) (Proc.devRef .tc main_v45) = _
  after_results_simp
  rw [(W2_of_ne m ρ c main_arg7 (by decide)).trans (W1_arg7 m ρ c)]
  exact reshape_row (m ((c.tc : Thread nD τ).loc main_arg7)) shapeCasts_S64_S1x64

set_option maxHeartbeats 4000000 in
/-- The neighbour term the second region finds: the mean aggregate of the projected hidden layer (the first region's
    second result, widened: the identity on extended reals). -/
theorem V3_v44 (c : Dev nD) : V3 m ρ c main_v44
    = aggOps64 (m ((c.tc : Thread nD τ).loc main_arg1)) (W2 m ρ c (Proc.devRef .tc main_v24_1)) := by
  show StableHlo.after hostOps1 (W2 m ρ c) (Proc.devRef .tc main_v44) = _
  after_results_simp
  rw [(W2_of_ne m ρ c main_v1 (by decide)).trans (W1_v1 m ρ c), (W2_of_ne m ρ c main_v3 (by decide)).trans (W1_v3 m ρ c)]
  rfl

/-! ## The result -/

/-- THE KERNEL'S VALUE: the network that multiplies the hidden layer by the neighbour weights first and aggregates after. -/
theorem result_eq (c : Dev nD) : W4 m ρ c (Proc.devRef .tc main_v46)
    = Sage.netProjFirst hN (src (m ((c.tc : Thread nD τ).loc main_arg1))) (dst (m ((c.tc : Thread nD τ).loc main_arg1)))
        (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) := by
  refine (W4_arr m ρ c 4).trans ((Blocks.out_array (V3 m ρ) c).trans ?_)
  rw [V3_hidden, V3_arg5, V3_v45, V3_v44, W2_hidden, W2_proj, aggOps64_eq]
  rfl

end Cert.KernelIdeal.KerValue

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.RefValue.lean ====
/-
  What the reference computes, as one function of its arguments: the two-layer mean-aggregation network in the order
  "aggregate the hidden layer's rows, then multiply by the neighbour weights".

  The reference's run ends with its result at a long composed term of the arguments. The term is three layers deep:
  the aggregation of the node features, the hidden layer, and the aggregation of the hidden layer feeding the output
  layer. Each layer is read entry by entry: a product of tables is the row-times-column sum, a bias vector broadcast
  down the rows reads its entry at the column, the gather–scatter–divide chain is the mean aggregate over in-edges.
-/
import proofs.«404498_j87282325390023_4_alg».proof.Proof.Gen.ReferenceIdeal.Run
import proofs.«404498_j87282325390023_4_alg».proof.Proof.SageNet
import proofs.«404498_j87282325390023_4_alg».proof.Proof.LibEdgeOps
import proofs.«404498_j87282325390023_4_alg».proof.Proof.LibRowLayers
import Idealize.ShloMosaic.Lib.StackMember
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.ValueIdx

/-- The table of node features has a row. -/
theorem hN : 0 < 100000 := by decide

/-- The edges' source endpoints, as @main computes them from the edge list. -/
abbrev src (x1 : IVec S2x1600000 32) : Sage.Ends 1600000 :=
  Sage.srcEnds 1600000 100000#32 slices_S2x1600000_S1x1600000_0_0 shapeCasts_S1x1600000_S1600000 bcast_S_S1600000
    bcast_S1600000_S1600000x1_0 x1
/-- The edges' destination endpoints, as @main computes them from the edge list. -/
abbrev dst (x1 : IVec S2x1600000 32) : Sage.Ends 1600000 :=
  Sage.dstEnds 1600000 slices_S2x1600000_S1x1600000_1_0 shapeCasts_S1x1600000_S1600000 bcast_S1600000_S1600000x1_0 x1

/-- Mean aggregation of a 128-column table in @main's operations: gather the rows the edges read, sum them into their
    destination nodes, divide by the larger of the in-degree and one. -/
def aggOps (x1 : IVec S2x1600000 32) (y : FVec Ideal S100000x128 .f32) : FVec Ideal S100000x128 .f32 :=
  Host.divf
    (Host.scatterAdd scatter_S100000x128_S1600000x1_S1600000x128_1_0_0_1
      (broadcastInDim S100000x128 ![] bcast_S_S100000x128 (constant S_ .f32 0x00000000#32)) (dst x1)
      (Host.gather gather_S100000x128_S1600000x1_S1600000x128_1_0_n_n_0_1_1128 y (src x1)))
    (broadcastInDim S100000x128 ![0, 1] bcast_S100000x1_S100000x128_0_1 (broadcastInDim S100000x1 ![0] bcast_S100000_S100000x1_0
      (maximumf
        (Host.scatterAdd scatter_S100000_S1600000x1_S1600000_n_0_0_1
          (broadcastInDim S100000 ![] bcast_S_S100000 (constant S_ .f32 0x00000000#32)) (dst x1)
          (broadcastInDim S1600000 ![] bcast_S_S1600000 (constant S_ .f32 0x3F800000#32)))
        (broadcastInDim S100000 ![] bcast_S_S100000 (constant S_ .f32 0x3F800000#32)))))

/-- The hidden layer in @main's operations. -/
def hidOps (x a : FVec Ideal S100000x128 .f32) (w w' : FVec Ideal S128x128 .f32) (b : FVec Ideal S128 .f32) :
    FVec Ideal S100000x128 .f32 :=
  maximumf
    (addf
      (addf (Host.dotGeneral dot_S100000x128_S128x128_S100000x128_1_0_0_1_n_n none x w)
        (Host.dotGeneral dot_S100000x128_S128x128_S100000x128_1_0_0_1_n_n none a w'))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The output layer in @main's operations. -/
def outOps (h a : FVec Ideal S100000x128 .f32) (w w' : FVec Ideal S128x64 .f32) (b : FVec Ideal S64 .f32) :
    FVec Ideal S100000x64 .f32 :=
  addf
    (addf (Host.dotGeneral dot_S100000x128_S128x64_S100000x64_1_0_0_1_n_n none h w)
      (Host.dotGeneral dot_S100000x128_S128x64_S100000x64_1_0_0_1_n_n none a w'))
    (broadcastInDim S100000x64 ![0, 1] bcast_S1x64_S100000x64_0_1 (broadcastInDim S1x64 ![1] bcast_S64_S1x64_1 b))

/-- @main's aggregation is the mean aggregate over in-edges. -/
theorem aggOps_eq (x1 : IVec S2x1600000 32) (y : FVec Ideal S100000x128 .f32) :
    aggOps x1 y = Sage.agg hN (src x1) (dst x1) y := by
  funext i
  obtain ⟨n, k, rfl⟩ : ∃ (n : Fin 100000) (k : Fin 128), i = ix2 n k := ⟨i 0, i 1, eq_ix2 i⟩
  exact Sage.agg_ops_apply hN gather_S100000x128_S1600000x1_S1600000x128_1_0_n_n_0_1_1128_wf
    scatter_S100000x128_S1600000x1_S1600000x128_1_0_0_1_wf scatter_S100000_S1600000x1_S1600000_n_0_0_1_wf
    bcast_S_S100000x128 bcast_S_S100000 bcast_S_S1600000 bcast_S100000_S100000x1_0 bcast_S100000x1_S100000x128_0_1
    (src x1) (dst x1) y n k

/-- The product of a table of rows with a weight matrix, read at an entry: the row times the column. -/
theorem dot128_apply (x : FVec Ideal S100000x128 .f32) (w : FVec Ideal S128x128 .f32) (n : Fin 100000) (j : Fin 128) :
    Host.dotGeneral dot_S100000x128_S128x128_S100000x128_1_0_0_1_n_n none x w (ix2 n j) = Sage.linAt x w n j :=
  StackMember.dotGeneral_plain_apply (m := 100000) (k := 128) (n := 128) none x w n j

theorem dot64_apply (x : FVec Ideal S100000x128 .f32) (w : FVec Ideal S128x64 .f32) (n : Fin 100000) (j : Fin 64) :
    Host.dotGeneral dot_S100000x128_S128x64_S100000x64_1_0_0_1_n_n none x w (ix2 n j) = Sage.linAt x w n j :=
  StackMember.dotGeneral_plain_apply (m := 100000) (k := 128) (n := 64) none x w n j

/-- @main's hidden layer is the network's. -/
theorem hidOps_eq (x a : FVec Ideal S100000x128 .f32) (w w' : FVec Ideal S128x128 .f32) (b : FVec Ideal S128 .f32) :
    hidOps x a w w' b = Sage.hidden x a w w' (Sage.asRow b) := by
  funext i
  obtain ⟨n, j, rfl⟩ : ∃ (n : Fin 100000) (j : Fin 128), i = ix2 n j := ⟨i 0, i 1, eq_ix2 i⟩
  unfold hidOps
  rw [maximumf_apply, addf_apply, addf_apply, dot128_apply, dot128_apply, RowLayers.rowDown_apply,
    RowLayers.rowBroadcast_apply, RowLayers.scalarBroadcast_apply, Ideal.ofBits_zero_f32]
  rfl

/-- @main's output layer is the network's, the neighbour term the aggregate's rows times the neighbour weights. -/
theorem outOps_eq (h a : FVec Ideal S100000x128 .f32) (w w' : FVec Ideal S128x64 .f32) (b : FVec Ideal S64 .f32) :
    outOps h a w w' b = Sage.out h (Sage.lin a w') w (Sage.asRow b) := by
  funext i
  obtain ⟨n, j, rfl⟩ : ∃ (n : Fin 100000) (j : Fin 64), i = ix2 n j := ⟨i 0, i 1, eq_ix2 i⟩
  unfold outOps
  rw [addf_apply, addf_apply, dot64_apply, dot64_apply, RowLayers.rowDown_apply, RowLayers.rowBroadcast_apply]
  rfl

variable (m : (ℓ : Loc nD τ sig) → Buf (Elt Ideal) ℓ)

set_option maxHeartbeats 4000000 in
/-- The run's result term is the three layers composed. -/
theorem res_eq_ops (c : Dev nD) :
    res_main_v54 (F := Ideal) m c
      = outOps
          (hidOps (m ((c.tc : Thread nD τ).loc main_arg0)) (aggOps (m ((c.tc : Thread nD τ).loc main_arg1)) (m ((c.tc : Thread nD τ).loc main_arg0)))
            (m ((c.tc : Thread nD τ).loc main_arg2)) (m ((c.tc : Thread nD τ).loc main_arg3)) (m ((c.tc : Thread nD τ).loc main_arg4)))
          (aggOps (m ((c.tc : Thread nD τ).loc main_arg1))
            (hidOps (m ((c.tc : Thread nD τ).loc main_arg0)) (aggOps (m ((c.tc : Thread nD τ).loc main_arg1)) (m ((c.tc : Thread nD τ).loc main_arg0)))
              (m ((c.tc : Thread nD τ).loc main_arg2)) (m ((c.tc : Thread nD τ).loc main_arg3)) (m ((c.tc : Thread nD τ).loc main_arg4))))
          (m ((c.tc : Thread nD τ).loc main_arg5)) (m ((c.tc : Thread nD τ).loc main_arg6)) (m ((c.tc : Thread nD τ).loc main_arg7)) := by
  unfold res_main_v54
  rfl

/-- THE REFERENCE'S VALUE: the network that aggregates the hidden layer first and multiplies by the neighbour weights after. -/
theorem result_eq (c : Dev nD) :
    res_main_v54 (F := Ideal) m c
      = Sage.netAggFirst hN (src (m ((c.tc : Thread nD τ).loc main_arg1))) (dst (m ((c.tc : Thread nD τ).loc main_arg1)))
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) := by
  rw [res_eq_ops, aggOps_eq, hidOps_eq, aggOps_eq, outOps_eq]
  rfl

end Cert.ReferenceIdeal.RefValue

end
-- ==== Proof.FiniteInputs.lean ====
/-
  From "every float input is finite" to "every float argument array is real-valued".

  The precondition is a conjunction of seven tests, one per float argument: every entry x of the array satisfies
  |x| < +∞, where |x| = max x (−x) on the extended reals and +∞ is the value of the 32-bit pattern 0x7F800000.
  An extended real whose absolute value lies strictly below +∞ is neither +∞ nor −∞; so each array is real-valued.
-/
import proofs.«404498_j87282325390023_4_alg».proof.Pre_finite_inputs
import proofs.«404498_j87282325390023_4_alg».proof.Proof.SageSpec
import Idealize.ShloMosaic.Lib.ReduceAll
import Idealize.ShloMosaic.Lib.ValueIdx
import Idealize.ShloMosaic.PureOps.Ideal.Laws

namespace Cert.FiniteInputs

open Idealize.ShloMosaic Idealize.ShloMosaic.ValueIdx Cert.Pre_finite_inputs

/-- The rank-0 shape has exactly one index. -/
instance subsingleton_scalar_idx : Subsingleton S_.Idx := ⟨fun a b => funext fun d => d.elim0⟩

/-- The 32-bit pattern 0x7F800000 denotes +∞. -/
theorem ofBits_inf : Ideal.ofBits .f32 0x7F800000#32 = (⊤ : EReal) := by
  simp [Ideal.ofBits, Ideal.ieee]

/-- An extended real whose absolute value max x (−x) lies strictly below +∞ is neither infinity. -/
theorem ne_top_bot_of_abs_lt_top (x : EReal) (h : max x (-x) < ⊤) : x ≠ ⊤ ∧ x ≠ ⊥ := by
  constructor
  · rintro rfl; simp at h
  · rintro rfl; simp at h

/-- The comparison "a < b" came out true exactly when a < b. -/
theorem lt_of_cmp_olt (a b : EReal) (h : Ideal.cmp .olt a b = 1#1) : a < b := by
  unfold Ideal.cmp at h
  by_contra hn
  simp [hn] at h

/-- One array: if the conjunction over all entries of "|x| < +∞" is true, the array is real-valued. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ix0 = 1#1) :
    Sage.IsReal x := by
  intro i
  have hi := Host.reduce_andi_all _ _ hr hu ix0 e i
  have hlt : max (x i) (-(x i)) < ⊤ := by
    have := lt_of_cmp_olt _ _ hi
    rwa [show (broadcastInDim s ![] hb (constant (F := Ideal) S_ .f32 0x7F800000#32)) i
          = Ideal.ofBits .f32 0x7F800000#32 from rfl, ofBits_inf] at this
  exact ne_top_bot_of_abs_lt_top _ hlt

/-- The precondition "every float input is finite" makes each of the seven float arguments real-valued. -/
theorem real_of_pre [Cert.Pre_finite_inputs.Facts]
    (a0 : FVec Ideal S100000x128 .f32) (a1 : IVec S2x1600000 32) (a2 : FVec Ideal S128x128 .f32)
    (a3 : FVec Ideal S128x128 .f32) (a4 : FVec Ideal S128 .f32) (a5 : FVec Ideal S128x64 .f32)
    (a6 : FVec Ideal S128x64 .f32) (a7 : FVec Ideal S64 .f32)
    (h : Cert.Pre_finite_inputs.fn (F := Ideal) a0 a1 a2 a3 a4 a5 a6 a7 = fun _ => 1#1) :
    Sage.IsReal a0 ∧ Sage.IsReal a2 ∧ Sage.IsReal a3 ∧ Sage.IsReal a4 ∧ Sage.IsReal a5 ∧ Sage.IsReal a6
      ∧ Sage.IsReal a7 := by
  have h0 := congrFun h ValueIdx.ix0
  dsimp only [Cert.Pre_finite_inputs.fn, Cert.Pre_finite_inputs.fn_part1] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨isReal_of_all a0 _ _ _ e0, isReal_of_all a2 _ _ _ e2, isReal_of_all a3 _ _ _ e3,
    isReal_of_all a4 _ _ _ e4, isReal_of_all a5 _ _ _ e5, isReal_of_all a6 _ _ _ e6, isReal_of_all a7 _ _ _ e7⟩

end Cert.FiniteInputs
-- ==== Proof.lean ====
/-
  The claim: the kernel and the reference compute the same two-layer mean-aggregation graph network.

  The kernel runs the first layer's affine part and its ReLU in one region, which also multiplies the hidden layer h by
  the second layer's neighbour weights, z = h W₂'; between the regions the host aggregates z over the in-edges of each
  node; the second region adds h W₂, the aggregate and the bias. The reference aggregates h itself and multiplies the
  aggregate by W₂'. Mean aggregation over in-edges is a finite sum of rows divided by a positive real, so for REAL
  tables it commutes with the product on the right: agg(h W₂') = agg(h) W₂'. The inputs are real by the precondition
  (every float input finite), the hidden layer is real because sums, products, a quotient by a real at least one and a
  maximum with zero of reals are real, and so the two results agree entry by entry.

  Three frames: the kernel's two are the generated frame proofs; the reference's is its generated run with the
  result dropped. The idealization rewrote nothing, so `preserves` is trivial.
-/
import proofs.«404498_j87282325390023_4_alg».proof.Defs
import proofs.«404498_j87282325390023_4_alg».proof.Proof.Gen.Kernel
import proofs.«404498_j87282325390023_4_alg».proof.Proof.Gen.Kernel.Skeleton
import proofs.«404498_j87282325390023_4_alg».proof.Proof.Gen.Kernel.Launch
import proofs.«404498_j87282325390023_4_alg».proof.Proof.Gen.Kernel.Points
import proofs.«404498_j87282325390023_4_alg».proof.Proof.Gen.Kernel.Frame
import proofs.«404498_j87282325390023_4_alg».proof.Proof.Gen.KernelIdeal
import proofs.«404498_j87282325390023_4_alg».proof.Proof.Gen.KernelIdeal.Skeleton
import proofs.«404498_j87282325390023_4_alg».proof.Proof.Gen.KernelIdeal.Launch
import proofs.«404498_j87282325390023_4_alg».proof.Proof.Gen.KernelIdeal.Points
import proofs.«404498_j87282325390023_4_alg».proof.Proof.Gen.KernelIdeal.Frame
import proofs.«404498_j87282325390023_4_alg».proof.Proof.Gen.ReferenceIdeal
import proofs.«404498_j87282325390023_4_alg».proof.Proof.Gen.Pre_finite_inputs
import proofs.«404498_j87282325390023_4_alg».proof.Proof.Gen.ReferenceIdeal.Run
import proofs.«404498_j87282325390023_4_alg».proof.Proof.Gen.ReferenceIdeal.Read
import proofs.«404498_j87282325390023_4_alg».proof.Proof.KernelRun
import proofs.«404498_j87282325390023_4_alg».proof.Proof.KernelValue
import proofs.«404498_j87282325390023_4_alg».proof.Proof.RefValue
import proofs.«404498_j87282325390023_4_alg».proof.Proof.FiniteInputs
import proofs.«404498_j87282325390023_4_alg».proof.Proof.SageNet
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the exact instance both programs end at the same table: the kernel's is the network with the product before the
    aggregation, the reference's the network with the aggregation before the product, and on real inputs the two agree. -/
theorem algebraic : Cert.algebraic_KernelIdeal_ReferenceIdeal := by
  intro m ρ m' ρ' hpre hagree
  refine ⟨fun c => Sage.netProjFirst Cert.KernelIdeal.KerValue.hN
      (Cert.KernelIdeal.KerValue.src (m ((c.tc : Thread Cert.KernelIdeal.nD Cert.KernelIdeal.τ).loc Cert.KernelIdeal.main_arg1)))
      (Cert.KernelIdeal.KerValue.dst (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KerValue.result_eq m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h2, h3, h4, -, h6, -⟩ := Cert.FiniteInputs.real_of_pre _ _ _ _ _ _ _ _ (hpre c)
    obtain ⟨e0, e1, e2, e3, e4, e5, e6, e7⟩ := hagree c
    rw [Cert.ReferenceIdeal.RefValue.result_eq, e0, e1, e2, e3, e4, e5, e6, e7]
    exact (Sage.netProjFirst_eq_netAggFirst _ _ _ _ _ h0 h2 h3 h4 h6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
